-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S7x1024x1024 : Shape := ⟨3, ![7, 1024, 1024]⟩
abbrev S1024x1024 : Shape := ⟨2, ![1024, 1024]⟩
abbrev S1x1024x1024 : Shape := ⟨3, ![1, 1024, 1024]⟩
abbrev S256x1024 : Shape := ⟨2, ![256, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S7x1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S2048x2048_S1024x1024_0_0 : ∀ a, (![0, 0] : Fin 2 → Nat) a + S1024x1024.size a ≤ S2048x2048.size a
  h_S1024x1024 : 0 < S1024x1024.numel
  inb_S2048x2048_S1024x1024_0_1024 : ∀ a, (![0, 1024] : Fin 2 → Nat) a + S1024x1024.size a ≤ S2048x2048.size a
  inb_S2048x2048_S1024x1024_1024_0 : ∀ a, (![1024, 0] : Fin 2 → Nat) a + S1024x1024.size a ≤ S2048x2048.size a
  inb_S2048x2048_S1024x1024_1024_1024 : ∀ a, (![1024, 1024] : Fin 2 → Nat) a + S1024x1024.size a ≤ S2048x2048.size a
  bitsLt_bf16_f32 : FTy.bits .bf16 < FTy.bits .f32
  inb_S7x1024x1024_S1x1024x1024_0_0_0 : ∀ a, (![0, 0, 0] : Fin 3 → Nat) a + S1x1024x1024.size a ≤ S7x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S7x1024x1024_S1x1024x1024_0_0_0 : (Rect.unit (s := S7x1024x1024) ![0, 0, 0] S1x1024x1024.size inb_S7x1024x1024_S1x1024x1024_0_0_0).PackedRows (EltTy.packing .bf16)
  inb_S7x1024x1024_S1x1024x1024_1_0_0 : ∀ a, (![1, 0, 0] : Fin 3 → Nat) a + S1x1024x1024.size a ≤ S7x1024x1024.size a
  packedbf16_S7x1024x1024_S1x1024x1024_1_0_0 : (Rect.unit (s := S7x1024x1024) ![1, 0, 0] S1x1024x1024.size inb_S7x1024x1024_S1x1024x1024_1_0_0).PackedRows (EltTy.packing .bf16)
  inb_S7x1024x1024_S1x1024x1024_2_0_0 : ∀ a, (![2, 0, 0] : Fin 3 → Nat) a + S1x1024x1024.size a ≤ S7x1024x1024.size a
  packedbf16_S7x1024x1024_S1x1024x1024_2_0_0 : (Rect.unit (s := S7x1024x1024) ![2, 0, 0] S1x1024x1024.size inb_S7x1024x1024_S1x1024x1024_2_0_0).PackedRows (EltTy.packing .bf16)
  inb_S7x1024x1024_S1x1024x1024_3_0_0 : ∀ a, (![3, 0, 0] : Fin 3 → Nat) a + S1x1024x1024.size a ≤ S7x1024x1024.size a
  packedbf16_S7x1024x1024_S1x1024x1024_3_0_0 : (Rect.unit (s := S7x1024x1024) ![3, 0, 0] S1x1024x1024.size inb_S7x1024x1024_S1x1024x1024_3_0_0).PackedRows (EltTy.packing .bf16)
  inb_S7x1024x1024_S1x1024x1024_4_0_0 : ∀ a, (![4, 0, 0] : Fin 3 → Nat) a + S1x1024x1024.size a ≤ S7x1024x1024.size a
  packedbf16_S7x1024x1024_S1x1024x1024_4_0_0 : (Rect.unit (s := S7x1024x1024) ![4, 0, 0] S1x1024x1024.size inb_S7x1024x1024_S1x1024x1024_4_0_0).PackedRows (EltTy.packing .bf16)
  inb_S7x1024x1024_S1x1024x1024_5_0_0 : ∀ a, (![5, 0, 0] : Fin 3 → Nat) a + S1x1024x1024.size a ≤ S7x1024x1024.size a
  packedbf16_S7x1024x1024_S1x1024x1024_5_0_0 : (Rect.unit (s := S7x1024x1024) ![5, 0, 0] S1x1024x1024.size inb_S7x1024x1024_S1x1024x1024_5_0_0).PackedRows (EltTy.packing .bf16)
  inb_S7x1024x1024_S1x1024x1024_6_0_0 : ∀ a, (![6, 0, 0] : Fin 3 → Nat) a + S1x1024x1024.size a ≤ S7x1024x1024.size a
  packedbf16_S7x1024x1024_S1x1024x1024_6_0_0 : (Rect.unit (s := S7x1024x1024) ![6, 0, 0] S1x1024x1024.size inb_S7x1024x1024_S1x1024x1024_6_0_0).PackedRows (EltTy.packing .bf16)
  inb_S512x2048_S256x1024_0_0 : ∀ a, (![0, 0] : Fin 2 → Nat) a + S256x1024.size a ≤ S512x2048.size a
  h_S256x1024 : 0 < S256x1024.numel
  inb_S512x2048_S256x1024_0_1024 : ∀ a, (![0, 1024] : Fin 2 → Nat) a + S256x1024.size a ≤ S512x2048.size a
  inb_S512x2048_S256x1024_256_0 : ∀ a, (![256, 0] : Fin 2 → Nat) a + S256x1024.size a ≤ S512x2048.size a
  inb_S512x2048_S256x1024_256_1024 : ∀ a, (![256, 1024] : Fin 2 → Nat) a + S256x1024.size a ≤ S512x2048.size a
  inb_S1x2048_S1x1024_0_0 : ∀ a, (![0, 0] : Fin 2 → Nat) a + S1x1024.size a ≤ S1x2048.size a
  h_S1x1024 : 0 < S1x1024.numel
  shapeCasts_S1x1024_S1x1024 : S1x1024.ShapeCasts S1x1024
  inb_S1x2048_S1x1024_0_1024 : ∀ a, (![0, 1024] : Fin 2 → Nat) a + S1x1024.size a ≤ S1x2048.size a
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x8192 : Shape := ⟨2, ![2048, 8192]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S8192x2048_S2048x8192_1_0 : S8192x2048.Transposes [1, 0] S2048x8192
  transposes_S2048x8192_S8192x2048_1_0 : S2048x8192.Transposes [1, 0] S8192x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S2048x2048_S2048x8192_S2048x8192_1_0_0_1_n_n_wf : DotDims.WF S2048x2048 S2048x8192 S2048x8192 [1] [0] [0] [1] [] []

variable [Facts₀]

def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf

class Facts : Prop extends Facts₀ where

variable [Facts]
-- ==== Proof.Blocks.lean ====
/-
  One level of the seven-product scheme for a 2x2-blocked matrix product, as this kernel lays it out.
  The weight array w [2048, 2048] (rows = output features, columns = input features) is cut into four
  1024 x 1024 quadrants w00 w01 / w10 w11; the kernel keeps, in a carried buffer of seven planes, the seven
  combinations of those quadrants that the scheme multiplies by (`combos`).  A block x [512, 2048] of input
  rows is cut into four 256 x 1024 quadrants a11 a12 / a21 a22; `blockOut` is the [512, 2048] output block as
  four stored quadrants, each a sum and difference of products of quadrant combinations of x with planes of the
  carried buffer, plus the matching half of the bias row b [1, 2048].
  Both are stated over any float instance: they are the stores the kernel body makes, as values.
-/
import proofs.«113140_g50525995270225_cont_8to1_c_264_20_alg».proof.Proof.Gen.KernelIdeal.Frame
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]

/-! ## Quadrants -/

/-- The weight quadrant with output-feature half `p` and input-feature half `q` is rows 1024p.., columns 1024q... -/
abbrev w00 (w : Vec F S2048x2048 .f32) : Vec F S1024x1024 .f32 := View.ld w (Rect.unit ![0, 0] S1024x1024.size inb_S2048x2048_S1024x1024_0_0)
abbrev w01 (w : Vec F S2048x2048 .f32) : Vec F S1024x1024 .f32 := View.ld w (Rect.unit ![0, 1024] S1024x1024.size inb_S2048x2048_S1024x1024_0_1024)
abbrev w10 (w : Vec F S2048x2048 .f32) : Vec F S1024x1024 .f32 := View.ld w (Rect.unit ![1024, 0] S1024x1024.size inb_S2048x2048_S1024x1024_1024_0)
abbrev w11 (w : Vec F S2048x2048 .f32) : Vec F S1024x1024 .f32 := View.ld w (Rect.unit ![1024, 1024] S1024x1024.size inb_S2048x2048_S1024x1024_1024_1024)

/-- The input block's quadrant with row half `p` and feature half `q` is rows 256p.., columns 1024q... -/
abbrev a11 (x : Vec F S512x2048 .f32) : Vec F S256x1024 .f32 := View.ld x (Rect.unit ![0, 0] S256x1024.size inb_S512x2048_S256x1024_0_0)
abbrev a12 (x : Vec F S512x2048 .f32) : Vec F S256x1024 .f32 := View.ld x (Rect.unit ![0, 1024] S256x1024.size inb_S512x2048_S256x1024_0_1024)
abbrev a21 (x : Vec F S512x2048 .f32) : Vec F S256x1024 .f32 := View.ld x (Rect.unit ![256, 0] S256x1024.size inb_S512x2048_S256x1024_256_0)
abbrev a22 (x : Vec F S512x2048 .f32) : Vec F S256x1024 .f32 := View.ld x (Rect.unit ![256, 1024] S256x1024.size inb_S512x2048_S256x1024_256_1024)

/-- The two halves of the bias row. -/
abbrev blo (b : Vec F S1x2048 .f32) : Vec F S1x1024 .f32 := View.ld b (Rect.unit ![0, 0] S1x1024.size inb_S1x2048_S1x1024_0_0)
abbrev bhi (b : Vec F S1x2048 .f32) : Vec F S1x1024 .f32 := View.ld b (Rect.unit ![0, 1024] S1x1024.size inb_S1x2048_S1x1024_0_1024)

/-- Plane `k` of the carried buffer, as a [1, 1024, 1024] slab. -/
abbrev pl0 (s : Vec F S7x1024x1024 .bf16) : Vec F S1x1024x1024 .bf16 := View.ld s (Rect.unit ![0, 0, 0] S1x1024x1024.size inb_S7x1024x1024_S1x1024x1024_0_0_0)
abbrev pl1 (s : Vec F S7x1024x1024 .bf16) : Vec F S1x1024x1024 .bf16 := View.ld s (Rect.unit ![1, 0, 0] S1x1024x1024.size inb_S7x1024x1024_S1x1024x1024_1_0_0)
abbrev pl2 (s : Vec F S7x1024x1024 .bf16) : Vec F S1x1024x1024 .bf16 := View.ld s (Rect.unit ![2, 0, 0] S1x1024x1024.size inb_S7x1024x1024_S1x1024x1024_2_0_0)
abbrev pl3 (s : Vec F S7x1024x1024 .bf16) : Vec F S1x1024x1024 .bf16 := View.ld s (Rect.unit ![3, 0, 0] S1x1024x1024.size inb_S7x1024x1024_S1x1024x1024_3_0_0)
abbrev pl4 (s : Vec F S7x1024x1024 .bf16) : Vec F S1x1024x1024 .bf16 := View.ld s (Rect.unit ![4, 0, 0] S1x1024x1024.size inb_S7x1024x1024_S1x1024x1024_4_0_0)
abbrev pl5 (s : Vec F S7x1024x1024 .bf16) : Vec F S1x1024x1024 .bf16 := View.ld s (Rect.unit ![5, 0, 0] S1x1024x1024.size inb_S7x1024x1024_S1x1024x1024_5_0_0)
abbrev pl6 (s : Vec F S7x1024x1024 .bf16) : Vec F S1x1024x1024 .bf16 := View.ld s (Rect.unit ![6, 0, 0] S1x1024x1024.size inb_S7x1024x1024_S1x1024x1024_6_0_0)

/-! ## The carried buffer and the output block -/

/-- The seven planes: w00+w11, w00, w10-w11, w01-w00, w11, w00+w10, w01+w11 (planes 0 to 6), listed last
    stored first. -/
def combos (w : Vec F S2048x2048 .f32) : Vec F S7x1024x1024 .bf16 :=
  View.canon
    [⟨Rect.unit ![6, 0, 0] S1x1024x1024.size inb_S7x1024x1024_S1x1024x1024_6_0_0, k0_pay14 (w01 w) (w11 w)⟩,
     ⟨Rect.unit ![5, 0, 0] S1x1024x1024.size inb_S7x1024x1024_S1x1024x1024_5_0_0, k0_pay13 (k0_pay12 (w00 w) (w10 w))⟩,
     ⟨Rect.unit ![4, 0, 0] S1x1024x1024.size inb_S7x1024x1024_S1x1024x1024_4_0_0, k0_pay11 (w11 w)⟩,
     ⟨Rect.unit ![3, 0, 0] S1x1024x1024.size inb_S7x1024x1024_S1x1024x1024_3_0_0, k0_pay10 (w00 w) (w01 w)⟩,
     ⟨Rect.unit ![2, 0, 0] S1x1024x1024.size inb_S7x1024x1024_S1x1024x1024_2_0_0, k0_pay9 (w10 w) (w11 w)⟩,
     ⟨Rect.unit ![1, 0, 0] S1x1024x1024.size inb_S7x1024x1024_S1x1024x1024_1_0_0, k0_pay8 (w00 w)⟩,
     ⟨Rect.unit ![0, 0, 0] S1x1024x1024.size inb_S7x1024x1024_S1x1024x1024_0_0_0, k0_pay7 (w00 w) (w11 w)⟩]

/-- The output block's four stored quadrants (rows 0.., columns 0..; rows 256.., columns 1024..; rows 0..,
    columns 1024..; rows 256.., columns 0..), listed last stored first, over a carried buffer `s`. -/
def blockOut (x : Vec F S512x2048 .f32) (b : Vec F S1x2048 .f32) (s : Vec F S7x1024x1024 .bf16) : Vec F S512x2048 .f32 :=
  View.canon
    [⟨Rect.unit ![0, 0] S256x1024.size inb_S512x2048_S256x1024_0_0,
        k0_pay6 (k0_pay15 (a11 x)) (k0_pay16 (a12 x)) (k0_pay18 (a22 x)) (k0_pay19 (blo b)) (k0_pay21 (a22 x) (pl3 s))
          (k0_pay22 (a11 x) (a12 x) (pl4 s)) (pl0 s) (pl6 s)⟩,
     ⟨Rect.unit ![256, 1024] S256x1024.size inb_S512x2048_S256x1024_256_1024,
        k0_pay5 (k0_pay15 (a11 x)) (k0_pay17 (a21 x)) (k0_pay18 (a22 x)) (k0_pay20 (bhi b)) (k0_pay23 (a21 x) (a22 x) (pl1 s))
          (k0_pay24 (pl2 s)) (constant S256x1024 .f32 0x00000000#32) (pl0 s) (pl5 s)⟩,
     ⟨Rect.unit ![0, 1024] S256x1024.size inb_S512x2048_S256x1024_0_1024,
        k0_pay3 (k0_pay15 (a11 x)) (k0_pay20 (bhi b)) (k0_pay22 (a11 x) (a12 x) (pl4 s)) (k0_pay24 (pl2 s))
          (constant S256x1024 .f32 0x00000000#32)⟩,
     ⟨Rect.unit ![256, 0] S256x1024.size inb_S512x2048_S256x1024_256_0,
        k0_pay2 (k0_pay19 (blo b)) (k0_pay21 (a22 x) (pl3 s)) (k0_pay23 (a21 x) (a22 x) (pl1 s))⟩]

end Cert.KernelIdeal.Blocks

end
-- ==== Proof.Pieces.lean ====
/-
  What each control case of the kernel body leaves behind, as the values of `Blocks`: at the grid's first point
  the body fills the carried buffer with the seven combinations of the weight block and then computes the output
  block from the buffer it has just filled; at every later point it leaves the carried buffer as it found it and
  computes the output block from it.
-/
import proofs.«113140_g50525995270225_cont_8to1_c_264_20_alg».proof.Proof.Blocks
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem Idealize.ShloMosaic.Tactic

variable {F : FTy → Type} [FloatOps F]

/-- First point: the carried buffer ends at the seven combinations of the weight block. -/
theorem carried_first (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S7x1024x1024 .bf16) (harg5 : arg5.IsWhole) (hc0 : cond0_0 i)
    (x0 : Vec F S512x2048 .f32) (x1 : Vec F S2048x2048 .f32) (x2 : Vec F S1x2048 .f32) :
    sout0_A_0 c i arg1 harg1 arg2 harg2 arg3 harg3 arg4 harg4 arg5 harg5 hc0 x0 x1 x2 = combos x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  simp only [View.readAt_eq_ld, harg2.read_unread]
  rfl

/-- First point: the output block is computed from the buffer just filled. -/
theorem out_first (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S7x1024x1024 .bf16) (harg5 : arg5.IsWhole) (hc0 : cond0_0 i)
    (x0 : Vec F S512x2048 .f32) (x1 : Vec F S2048x2048 .f32) (x2 : Vec F S1x2048 .f32) :
    out0_A_3 c i arg1 harg1 arg2 harg2 arg3 harg3 arg4 harg4 arg5 harg5 hc0 x0 x1 x2 = blockOut x0 x2 (combos x1) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  simp only [View.readCov_eq_canon', View.readAt_eq_ld, harg1.read_unread, harg2.read_unread, harg3.read_unread]
  rfl

/-- Later points: the output block is computed from the buffer the point before left. -/
theorem out_later (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S7x1024x1024 .bf16) (harg5 : arg5.IsWhole) (hc0 : ¬cond0_0 i)
    (x0 : Vec F S512x2048 .f32) (x1 : Vec F S2048x2048 .f32) (x2 : Vec F S1x2048 .f32) (xs0 : Vec F S7x1024x1024 .bf16) :
    out0_B_3 c i arg1 harg1 arg2 harg2 arg3 harg3 arg4 harg4 arg5 harg5 hc0 x0 x1 x2 xs0 = blockOut x0 x2 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  simp only [View.readAt_eq_ld, harg1.read_unread, harg3.read_unread, harg5.read_unread]
  rfl

end Cert.KernelIdeal.Blocks

end
-- ==== Proof.Carried.lean ====
/-
  The carried buffer along the grid.  The weight window's block is the whole weight array at every point and the
  bias window's block the whole bias row, so the seven combinations stored at the first point are those of the
  whole weight array, and every later point finds them unchanged.  Hence after every point the output window's
  staging buffer holds `blockOut` of that point's 512 input rows, the bias row and the combinations of the
  weight array.
-/
import proofs.«113140_g50525995270225_cont_8to1_c_264_20_alg».proof.Proof.Pieces
import proofs.«113140_g50525995270225_cont_8to1_c_264_20_alg».proof.Proof.Gen.KernelIdeal.Value

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The 512 input rows the pipeline stages at point `t`. -/
abbrev xblk (c : Dev nD) (t : Fin cfg0.N) : Vec F S512x2048 .f32 := iblk m c 0 t
/-- The weight window's block at point `t`. -/
abbrev wblk (c : Dev nD) (t : Fin cfg0.N) : Vec F S2048x2048 .f32 := iblk m c 1 t
/-- The bias window's block at point `t`. -/
abbrev bblk (c : Dev nD) (t : Fin cfg0.N) : Vec F S1x2048 .f32 := iblk m c 2 t
/-- The whole weight array as the region finds it. -/
abbrev warr (c : Dev nD) : Vec F S2048x2048 .f32 := V m c main_arg1
/-- The bias row [1, 2048] as the region finds it. -/
abbrev barr (c : Dev nD) : Vec F S1x2048 .f32 := V m c main_v0

/-- The weight and bias windows sit at block (0, 0) at every point. -/
theorem fixed_windows : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The weight window's block is the whole weight array. -/
theorem wblk_eq (c : Dev nD) (t : Fin cfg0.N) : wblk m c t = warr m c := by
  obtain ⟨e0, e1, -, -⟩ := fixed_windows t
  funext j
  show (iblk m c 1 t : Vec F S2048x2048 .f32) j = V m c main_arg1 j
  unfold iblk
  rw [View.read_apply]
  show V m c main_arg1 _ = V m c main_arg1 j
  congr 1
  funext a
  apply Fin.ext
  match a with
  | ⟨0, _⟩ => show win0_1.index t (0 : Fin 2) * 2048 + 1 * (j 0).val = (j 0).val; rw [e0]; omega
  | ⟨1, _⟩ => show win0_1.index t (1 : Fin 2) * 2048 + 1 * (j 1).val = (j 1).val; rw [e1]; omega

/-- The bias window's block is the whole bias row. -/
theorem bblk_eq (c : Dev nD) (t : Fin cfg0.N) : bblk m c t = barr m c := by
  obtain ⟨-, -, e0, e1⟩ := fixed_windows t
  funext j
  show (iblk m c 2 t : Vec F S1x2048 .f32) j = V m c main_v0 j
  unfold iblk
  rw [View.read_apply]
  show V m c main_v0 _ = V m c main_v0 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 2048 + 1 * (j 1).val = (j 1).val; rw [e1]; omega

/-- After every point the carried buffer holds the seven combinations of the weight array. -/
theorem carried_eq (c : Dev nD) : ∀ (n : ℕ) (hn : n < cfg0.N), (outsAt0 m c n hn).2 = combos (warr m c) := by
  intro n
  induction n with
  | zero =>
    intro hn
    rw [outsAt0_A m c ⟨0, hn⟩ (Nat.zero_mod _)]
    dsimp only
    exact (carried_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩)).trans
      (congrArg combos (wblk_eq m c ⟨0, hn⟩))
  | succ n ih =>
    intro hn
    have hN : n + 1 < 16 := lt_of_lt_of_eq hn (show cfg0.N = 16 from N_0)
    rw [outsAt0_B m c ⟨n + 1, hn⟩ (by show ¬ (n + 1) % 16 = 0; omega)]
    dsimp only
    unfold sout0_B_0
    exact ih _

/-- After point `t` the output window's staging buffer holds `blockOut` of the point's input rows. -/
theorem out_eq (c : Dev nD) (t : Fin cfg0.N) :
    (outsAt0 m c t.val t.isLt).1 = blockOut (xblk m c t) (barr m c) (combos (warr m c)) := by
  by_cases h0 : t.val % 16 = 0
  · rw [outsAt0_A m c t h0]
    dsimp only
    exact (out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
      (congrArg₂ (fun b s => blockOut (xblk m c t) b s) (bblk_eq m c t) (congrArg combos (wblk_eq m c t)))
  · rw [outsAt0_B m c t h0]
    dsimp only
    exact (out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
        (outsAt0 m c (t.val - 1) (Nat.lt_of_le_of_lt (Nat.sub_le _ _) t.isLt)).2).trans
      (congrArg₂ (fun b s => blockOut (xblk m c t) b s) (bblk_eq m c t) (carried_eq m c _ _))

end Cert.KernelIdeal.Blocks

end
-- ==== Proof.Halves.lean ====
/-
  Splitting an index range into its lower and upper half: a row of 512 into two rows of 256, a feature axis
  of 2048 into two of 1024, and a sum over 2048 features into the sum over the lower 1024 plus the sum over the
  upper 1024.
-/
import Idealize.ShloMosaic.Lib.ValueIdx
import Mathlib.Algebra.BigOperators.Fin

namespace Cert.Halves

/-- Row `r` of the upper row half of a 512-row block. -/
abbrev lo256 (r : Fin 256) : Fin 512 := ⟨r.val, by have := r.isLt; omega⟩
/-- Row `r` of the lower row half (rows 256 to 511). -/
abbrev hi256 (r : Fin 256) : Fin 512 := ⟨256 + r.val, by have := r.isLt; omega⟩
/-- Feature `k` of the first feature half of 2048. -/
abbrev lo1024 (k : Fin 1024) : Fin 2048 := ⟨k.val, by have := k.isLt; omega⟩
/-- Feature `k` of the second feature half (features 1024 to 2047). -/
abbrev hi1024 (k : Fin 1024) : Fin 2048 := ⟨1024 + k.val, by have := k.isLt; omega⟩

/-- A sum over 2048 features is the sum over the first half plus the sum over the second half. -/
theorem sum_halves {M : Type*} [AddCommMonoid M] (f : Fin 2048 → M) :
    ∑ k : Fin 2048, f k = ∑ k : Fin 1024, f (lo1024 k) + ∑ k : Fin 1024, f (hi1024 k) := by
  exact Fin.sum_univ_add (a := 1024) (b := 1024) f

end Cert.Halves
-- ==== Proof.MatmulRead.lean ====
/-
  One product of the scheme read at an entry.  The kernel multiplies a [256, 1024] operand by the TRANSPOSE of a
  [1024, 1024] plane (both operands are contracted along their second axis), accumulating into zeros; over the
  extended reals the entry (r, n) of the result is the sum over k of l(r, k) · p(n, k).  The layout steps around
  the products are read at an entry too: a plane of the carried buffer seen as a matrix, a matrix stored as a
  plane, and a bias half-row spread down the 256 rows.
-/
import proofs.«113140_g50525995270225_cont_8to1_c_264_20_alg».proof.Proof.Blocks
import proofs.«113140_g50525995270225_cont_8to1_c_264_20_alg».proof.Proof.Halves
import Idealize.ShloMosaic.Lib.ValueIdx
import Idealize.ShloMosaic.Lib.Pipeline.Value
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.Halves

theorem lhs_axis0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_axis1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_axis0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_axis1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Entry (r, n) of a product of the scheme: the sum over the 1024 contracted features of l(r, k) · p(n, k). -/
theorem product_apply (l : FVec Ideal S256x1024 .bf16) (p : FVec Ideal S1024x1024 .bf16) (r : Fin 256) (n : Fin 1024) :
    matmul dot_S256x1024_S1024x1024_S256x1024_1_1_0_0_n_n none l p (constant S256x1024 .f32 0x00000000#32) (ix2 r n)
      = ∑ k : Fin 1024, l (ix2 r k) * p (ix2 n k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r n) ((ValueIdx.contrEquiv1 dot_S256x1024_S1024x1024_S256x1024_1_1_0_0_n_n 1024 rfl rfl).symm k) = ix2 r k := funext fun a => Fin.ext (by
    match a with
    | ⟨0, _⟩ => exact lhs_axis0 _ _
    | ⟨1, _⟩ => exact (lhs_axis1 _ _).trans hk)
  have er : dot_S256x1024_S1024x1024_S256x1024_1_1_0_0_n_n.rhsIdx (ix2 r n) ((ValueIdx.contrEquiv1 dot_S256x1024_S1024x1024_S256x1024_1_1_0_0_n_n 1024 rfl rfl).symm k) = ix2 n k := funext fun a => Fin.ext (by
    match a with
    | ⟨0, _⟩ => exact rhs_axis0 _ _
    | ⟨1, _⟩ => exact (rhs_axis1 _ _).trans hk)
  rw [el, er]

/-- Plane `j` of the carried buffer, loaded as a [1, 1024, 1024] slab and seen as a matrix, at entry (n, k). -/
theorem plane_apply {α : Type} (v : S1x1024x1024.Idx → α) (h : S1x1024x1024.ShapeCasts S1024x1024) (n k : Fin 1024) :
    shapeCast S1024x1024 v h (ix2 n k) = v (ix3 (0 : Fin 1) n k) := by
  refine shapeCast_apply v h (ix2 n k) (ix3 (0 : Fin 1) n k) ?_
  rw [Shape.rowMajor_val_three, Shape.rowMajor_val_two]
  show (0 * 1024 + n.val) * 1024 + k.val = n.val * 1024 + k.val
  omega

/-- A matrix stored as a [1, 1024, 1024] slab, at entry (0, n, k). -/
theorem slab_apply {α : Type} (v : S1024x1024.Idx → α) (h : S1024x1024.ShapeCasts S1x1024x1024) (n k : Fin 1024) :
    shapeCast S1x1024x1024 v h (ix3 (0 : Fin 1) n k) = v (ix2 n k) := by
  refine shapeCast_apply v h (ix3 (0 : Fin 1) n k) (ix2 n k) ?_
  rw [Shape.rowMajor_val_three, Shape.rowMajor_val_two]
  show n.val * 1024 + k.val = (0 * 1024 + n.val) * 1024 + k.val
  omega

/-- A bias half-row [1, 1024] spread down 256 rows, at entry (r, n). -/
theorem spread_apply {α : Type} (v : S1x1024.Idx → α) (h : S1x1024.Broadcasts S256x1024) (r : Fin 256) (n : Fin 1024) :
    broadcastTo S256x1024 v h (ix2 r n) = v (ix2 (0 : Fin 1) n) := by
  refine broadcastTo_apply v h (ix2 r n) (ix2 (0 : Fin 1) n) (fun a => ?_)
  match a with
  | ⟨0, _⟩ => show 0 = if (1 : Nat) = 1 then 0 else _; rw [if_pos rfl]
  | ⟨1, _⟩ => show n.val = if (1024 : Nat) = 1 then 0 else n.val; rw [if_neg (by decide)]

end Cert.KernelIdeal.Blocks

end
-- ==== Proof.CombosRead.lean ====
/-
  The carried buffer read at an entry.  Plane j of the seven-plane buffer, at row n and column k, is the j-th
  combination of the four 1024 x 1024 quadrants of the weight block at row n, column k of the quadrant: over the
  extended reals the sums and differences are the reals' and the change of format is the identity, so each plane
  is a sum or difference of two entries of the weight block (or a single entry).
-/
import proofs.«113140_g50525995270225_cont_8to1_c_264_20_alg».proof.Proof.MatmulRead
import Idealize.ShloMosaic.Lib.ValueIdx
import Idealize.ShloMosaic.Lib.Pipeline.Value
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.Halves

/-! ## The weight quadrants at an entry -/

/-- The quadrant of the first output half and first input half, at (n, k). -/
private theorem w00_apply (w : Vec Ideal S2048x2048 .f32) (n k : Fin 1024) :
    w00 w (ix2 n k) = w (ix2 (lo1024 n) (lo1024 k)) :=
  congrArg w (funext fun a => Fin.ext (by
    match a with
    | ⟨0, _⟩ => show 0 + 1 * n.val = n.val; omega
    | ⟨1, _⟩ => show 0 + 1 * k.val = k.val; omega))

/-- The quadrant of the first output half and second input half, at (n, k). -/
private theorem w01_apply (w : Vec Ideal S2048x2048 .f32) (n k : Fin 1024) :
    w01 w (ix2 n k) = w (ix2 (lo1024 n) (hi1024 k)) :=
  congrArg w (funext fun a => Fin.ext (by
    match a with
    | ⟨0, _⟩ => show 0 + 1 * n.val = n.val; omega
    | ⟨1, _⟩ => show 1024 + 1 * k.val = 1024 + k.val; omega))

/-- The quadrant of the second output half and first input half, at (n, k). -/
private theorem w10_apply (w : Vec Ideal S2048x2048 .f32) (n k : Fin 1024) :
    w10 w (ix2 n k) = w (ix2 (hi1024 n) (lo1024 k)) :=
  congrArg w (funext fun a => Fin.ext (by
    match a with
    | ⟨0, _⟩ => show 1024 + 1 * n.val = 1024 + n.val; omega
    | ⟨1, _⟩ => show 0 + 1 * k.val = k.val; omega))

/-- The quadrant of the second output half and second input half, at (n, k). -/
private theorem w11_apply (w : Vec Ideal S2048x2048 .f32) (n k : Fin 1024) :
    w11 w (ix2 n k) = w (ix2 (hi1024 n) (hi1024 k)) :=
  congrArg w (funext fun a => Fin.ext (by
    match a with
    | ⟨0, _⟩ => show 1024 + 1 * n.val = 1024 + n.val; omega
    | ⟨1, _⟩ => show 1024 + 1 * k.val = 1024 + k.val; omega))

/-! ## Which stored plane an index of the buffer lies under -/

/-- The plane stored at offset i along the first axis places its local index (0, n, k) at (i, n, k). -/
private theorem emb_plane (i : Nat) (j : Fin 7) (hij : i = j.val)
    (inb : ∀ a, (![i, 0, 0] : Fin 3 → Nat) a + S1x1024x1024.size a ≤ S7x1024x1024.size a) (n k : Fin 1024) :
    ix3 j n k = (Rect.unit ![i, 0, 0] S1x1024x1024.size inb : Rect S7x1024x1024).emb (ix3 (0 : Fin 1) n k) :=
  funext fun a => Fin.ext (by
    match a with
    | ⟨0, _⟩ => show j.val = i + 1 * 0; omega
    | ⟨1, _⟩ => show n.val = 0 + 1 * n.val; omega
    | ⟨2, _⟩ => show k.val = 0 + 1 * k.val; omega)

/-- An index of plane j lies under no plane stored at another offset along the first axis. -/
private theorem not_mem_plane (i : Nat) (j : Fin 7) (hij : i ≠ j.val)
    (inb : ∀ a, (![i, 0, 0] : Fin 3 → Nat) a + S1x1024x1024.size a ≤ S7x1024x1024.size a) (n k : Fin 1024) :
    ix3 j n k ∉ (Rect.unit ![i, 0, 0] S1x1024x1024.size inb : Rect S7x1024x1024).set := fun h => by
  have h0 := (Rect.mem_set_unit.mp h) 0
  change i ≤ j.val ∧ j.val < i + 1 at h0
  omega

/-- Off a stored plane, the buffer reads what the planes stored before it left. -/
private theorem canon_skip (i : Nat) (j : Fin 7) (hij : i ≠ j.val)
    (inb : ∀ a, (![i, 0, 0] : Fin 3 → Nat) a + S1x1024x1024.size a ≤ S7x1024x1024.size a)
    (pay : Vec Ideal S1x1024x1024 .bf16) (L : List (View.Piece (Elt Ideal) S7x1024x1024 .bf16)) (n k : Fin 1024) :
    View.canon (⟨(Rect.unit ![i, 0, 0] S1x1024x1024.size inb : Rect S7x1024x1024), pay⟩ :: L) (ix3 j n k)
      = View.canon L (ix3 j n k) :=
  View.canon_cons_of_not_mem _ L (not_mem_plane i j hij inb n k)

/-- Under the plane stored last at its own offset, the buffer reads that plane's slab at (0, n, k). -/
private theorem canon_take (i : Nat) (j : Fin 7) (hij : i = j.val)
    (inb : ∀ a, (![i, 0, 0] : Fin 3 → Nat) a + S1x1024x1024.size a ≤ S7x1024x1024.size a)
    (pay : Vec Ideal S1x1024x1024 .bf16) (L : List (View.Piece (Elt Ideal) S7x1024x1024 .bf16)) (n k : Fin 1024) :
    View.canon (⟨(Rect.unit ![i, 0, 0] S1x1024x1024.size inb : Rect S7x1024x1024), pay⟩ :: L) (ix3 j n k)
      = pay (ix3 (0 : Fin 1) n k) := by
  rw [emb_plane i j hij inb n k]
  exact View.canon_cons_emb (Rect.unit ![i, 0, 0] S1x1024x1024.size inb : Rect S7x1024x1024) pay L (ix3 (0 : Fin 1) n k)

/-! ## The seven planes -/

/-- Plane 0 is the sum of the two diagonal quadrants: first output half with first input half, plus second output
    half with second input half. -/
theorem combos_plane0 (w : Vec Ideal S2048x2048 .f32) (n k : Fin 1024) :
    combos w (ix3 (0 : Fin 7) n k) = w (ix2 (lo1024 n) (lo1024 k)) + w (ix2 (hi1024 n) (hi1024 k)) := by
  unfold combos
  rw [canon_skip 6 0 (by decide),
    canon_skip 5 0 (by decide),
    canon_skip 4 0 (by decide),
    canon_skip 3 0 (by decide),
    canon_skip 2 0 (by decide),
    canon_skip 1 0 (by decide),
    canon_take 0 0 rfl]
  unfold k0_pay7
  refine (slab_apply _ _ n k).trans ?_
  show w00 w (ix2 n k) + w11 w (ix2 n k) = _
  rw [w00_apply, w11_apply]

/-- Plane 1 is the quadrant of the first output half and first input half. -/
theorem combos_plane1 (w : Vec Ideal S2048x2048 .f32) (n k : Fin 1024) :
    combos w (ix3 (1 : Fin 7) n k) = w (ix2 (lo1024 n) (lo1024 k)) := by
  unfold combos
  rw [canon_skip 6 1 (by decide),
    canon_skip 5 1 (by decide),
    canon_skip 4 1 (by decide),
    canon_skip 3 1 (by decide),
    canon_skip 2 1 (by decide),
    canon_take 1 1 rfl]
  unfold k0_pay8
  refine (slab_apply _ _ n k).trans ?_
  show w00 w (ix2 n k) = _
  rw [w00_apply]

/-- Plane 2 is the second output half's first-input-half quadrant minus its second-input-half quadrant. -/
theorem combos_plane2 (w : Vec Ideal S2048x2048 .f32) (n k : Fin 1024) :
    combos w (ix3 (2 : Fin 7) n k) = w (ix2 (hi1024 n) (lo1024 k)) - w (ix2 (hi1024 n) (hi1024 k)) := by
  unfold combos
  rw [canon_skip 6 2 (by decide),
    canon_skip 5 2 (by decide),
    canon_skip 4 2 (by decide),
    canon_skip 3 2 (by decide),
    canon_take 2 2 rfl]
  unfold k0_pay9
  refine (slab_apply _ _ n k).trans ?_
  show w10 w (ix2 n k) - w11 w (ix2 n k) = _
  rw [w10_apply, w11_apply]

/-- Plane 3 is the first output half's second-input-half quadrant minus its first-input-half quadrant. -/
theorem combos_plane3 (w : Vec Ideal S2048x2048 .f32) (n k : Fin 1024) :
    combos w (ix3 (3 : Fin 7) n k) = w (ix2 (lo1024 n) (hi1024 k)) - w (ix2 (lo1024 n) (lo1024 k)) := by
  unfold combos
  rw [canon_skip 6 3 (by decide),
    canon_skip 5 3 (by decide),
    canon_skip 4 3 (by decide),
    canon_take 3 3 rfl]
  unfold k0_pay10
  refine (slab_apply _ _ n k).trans ?_
  show w01 w (ix2 n k) - w00 w (ix2 n k) = _
  rw [w01_apply, w00_apply]

/-- Plane 4 is the quadrant of the second output half and second input half. -/
theorem combos_plane4 (w : Vec Ideal S2048x2048 .f32) (n k : Fin 1024) :
    combos w (ix3 (4 : Fin 7) n k) = w (ix2 (hi1024 n) (hi1024 k)) := by
  unfold combos
  rw [canon_skip 6 4 (by decide),
    canon_skip 5 4 (by decide),
    canon_take 4 4 rfl]
  unfold k0_pay11
  refine (slab_apply _ _ n k).trans ?_
  show w11 w (ix2 n k) = _
  rw [w11_apply]

/-- Plane 5 is the sum of the two quadrants of the first input half: first output half plus second output half. -/
theorem combos_plane5 (w : Vec Ideal S2048x2048 .f32) (n k : Fin 1024) :
    combos w (ix3 (5 : Fin 7) n k) = w (ix2 (lo1024 n) (lo1024 k)) + w (ix2 (hi1024 n) (lo1024 k)) := by
  unfold combos
  rw [canon_skip 6 5 (by decide),
    canon_take 5 5 rfl]
  unfold k0_pay13 k0_pay12
  refine (slab_apply _ _ n k).trans ?_
  show w00 w (ix2 n k) + w10 w (ix2 n k) = _
  rw [w00_apply, w10_apply]

/-- Plane 6 is the sum of the two quadrants of the second input half: first output half plus second output half. -/
theorem combos_plane6 (w : Vec Ideal S2048x2048 .f32) (n k : Fin 1024) :
    combos w (ix3 (6 : Fin 7) n k) = w (ix2 (lo1024 n) (hi1024 k)) + w (ix2 (hi1024 n) (hi1024 k)) := by
  unfold combos
  rw [canon_take 6 6 rfl]
  unfold k0_pay14
  refine (slab_apply _ _ n k).trans ?_
  show w01 w (ix2 n k) + w11 w (ix2 n k) = _
  rw [w01_apply, w11_apply]

end Cert.KernelIdeal.Blocks

end
-- ==== Proof.BlockReadUpper.lean ====
/-
  The output block read at an entry of its two upper quadrants (rows 0 to 255).  Each stored quadrant is a sum
  and difference of products of the scheme plus a half of the bias row; read at entry (r, n) every product is a
  sum over the 1024 contracted features k of a combination of input quadrants at (r, k) times a plane of the
  carried buffer at (n, k).
-/
import proofs.«113140_g50525995270225_cont_8to1_c_264_20_alg».proof.Proof.MatmulRead
import Idealize.ShloMosaic.Lib.ValueIdx
import Idealize.ShloMosaic.Lib.Pipeline.Value
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.Halves

/-! ## The quadrant loads of the input block and the bias halves, at an entry -/

private theorem a11_at (x : Vec Ideal S512x2048 .f32) (r : Fin 256) (k : Fin 1024) :
    a11 x (ix2 r k) = x (ix2 (lo256 r) (lo1024 k)) :=
  congrArg x (funext fun a => Fin.ext (by
    match a with
    | ⟨0, _⟩ => show 0 + 1 * r.val = r.val; omega
    | ⟨1, _⟩ => show 0 + 1 * k.val = k.val; omega))

private theorem a12_at (x : Vec Ideal S512x2048 .f32) (r : Fin 256) (k : Fin 1024) :
    a12 x (ix2 r k) = x (ix2 (lo256 r) (hi1024 k)) :=
  congrArg x (funext fun a => Fin.ext (by
    match a with
    | ⟨0, _⟩ => show 0 + 1 * r.val = r.val; omega
    | ⟨1, _⟩ => show 1024 + 1 * k.val = 1024 + k.val; omega))

private theorem a22_at (x : Vec Ideal S512x2048 .f32) (r : Fin 256) (k : Fin 1024) :
    a22 x (ix2 r k) = x (ix2 (hi256 r) (hi1024 k)) :=
  congrArg x (funext fun a => Fin.ext (by
    match a with
    | ⟨0, _⟩ => show 256 + 1 * r.val = 256 + r.val; omega
    | ⟨1, _⟩ => show 1024 + 1 * k.val = 1024 + k.val; omega))

private theorem blo_at (b : Vec Ideal S1x2048 .f32) (n : Fin 1024) :
    blo b (ix2 (0 : Fin 1) n) = b (ix2 (0 : Fin 1) (lo1024 n)) :=
  congrArg b (funext fun a => Fin.ext (by
    match a with
    | ⟨0, _⟩ => show 0 + 1 * 0 = 0; omega
    | ⟨1, _⟩ => show 0 + 1 * n.val = n.val; omega))

private theorem bhi_at (b : Vec Ideal S1x2048 .f32) (n : Fin 1024) :
    bhi b (ix2 (0 : Fin 1) n) = b (ix2 (0 : Fin 1) (hi1024 n)) :=
  congrArg b (funext fun a => Fin.ext (by
    match a with
    | ⟨0, _⟩ => show 0 + 1 * 0 = 0; omega
    | ⟨1, _⟩ => show 1024 + 1 * n.val = 1024 + n.val; omega))

/-! ## The planes of the carried buffer, seen as matrices, at an entry -/

private theorem plane0_at (s : Vec Ideal S7x1024x1024 .bf16) (h : S1x1024x1024.ShapeCasts S1024x1024) (n k : Fin 1024) :
    shapeCast S1024x1024 (pl0 s) h (ix2 n k) = s (ix3 (0 : Fin 7) n k) :=
  (plane_apply _ h n k).trans (congrArg s (funext fun a => Fin.ext (by
    match a with
    | ⟨0, _⟩ => show 0 + 1 * 0 = 0; omega
    | ⟨1, _⟩ => show 0 + 1 * n.val = n.val; omega
    | ⟨2, _⟩ => show 0 + 1 * k.val = k.val; omega)))

private theorem plane2_at (s : Vec Ideal S7x1024x1024 .bf16) (h : S1x1024x1024.ShapeCasts S1024x1024) (n k : Fin 1024) :
    shapeCast S1024x1024 (pl2 s) h (ix2 n k) = s (ix3 (2 : Fin 7) n k) :=
  (plane_apply _ h n k).trans (congrArg s (funext fun a => Fin.ext (by
    match a with
    | ⟨0, _⟩ => show 2 + 1 * 0 = 2; omega
    | ⟨1, _⟩ => show 0 + 1 * n.val = n.val; omega
    | ⟨2, _⟩ => show 0 + 1 * k.val = k.val; omega)))

private theorem plane3_at (s : Vec Ideal S7x1024x1024 .bf16) (h : S1x1024x1024.ShapeCasts S1024x1024) (n k : Fin 1024) :
    shapeCast S1024x1024 (pl3 s) h (ix2 n k) = s (ix3 (3 : Fin 7) n k) :=
  (plane_apply _ h n k).trans (congrArg s (funext fun a => Fin.ext (by
    match a with
    | ⟨0, _⟩ => show 3 + 1 * 0 = 3; omega
    | ⟨1, _⟩ => show 0 + 1 * n.val = n.val; omega
    | ⟨2, _⟩ => show 0 + 1 * k.val = k.val; omega)))

private theorem plane4_at (s : Vec Ideal S7x1024x1024 .bf16) (h : S1x1024x1024.ShapeCasts S1024x1024) (n k : Fin 1024) :
    shapeCast S1024x1024 (pl4 s) h (ix2 n k) = s (ix3 (4 : Fin 7) n k) :=
  (plane_apply _ h n k).trans (congrArg s (funext fun a => Fin.ext (by
    match a with
    | ⟨0, _⟩ => show 4 + 1 * 0 = 4; omega
    | ⟨1, _⟩ => show 0 + 1 * n.val = n.val; omega
    | ⟨2, _⟩ => show 0 + 1 * k.val = k.val; omega)))

private theorem plane6_at (s : Vec Ideal S7x1024x1024 .bf16) (h : S1x1024x1024.ShapeCasts S1024x1024) (n k : Fin 1024) :
    shapeCast S1024x1024 (pl6 s) h (ix2 n k) = s (ix3 (6 : Fin 7) n k) :=
  (plane_apply _ h n k).trans (congrArg s (funext fun a => Fin.ext (by
    match a with
    | ⟨0, _⟩ => show 6 + 1 * 0 = 6; omega
    | ⟨1, _⟩ => show 0 + 1 * n.val = n.val; omega
    | ⟨2, _⟩ => show 0 + 1 * k.val = k.val; omega)))

/-! ## The products that enter the upper quadrants, at an entry -/

/-- m1 = (a11 + a22) · plane 0 -/
private theorem m1_at (x : Vec Ideal S512x2048 .f32) (s : Vec Ideal S7x1024x1024 .bf16) (r : Fin 256) (n : Fin 1024) :
    k0_pay4 (k0_pay15 (a11 x)) (k0_pay18 (a22 x)) (pl0 s) (ix2 r n)
      = ∑ k : Fin 1024, (x (ix2 (lo256 r) (lo1024 k)) + x (ix2 (hi256 r) (hi1024 k))) * s (ix3 (0 : Fin 7) n k) := by
  unfold k0_pay4 k0_pay15 k0_pay18
  dsimp only
  rw [product_apply]
  refine Finset.sum_congr rfl fun k _ => ?_
  rw [plane0_at]
  show (a11 x (ix2 r k) + a22 x (ix2 r k)) * _ = _
  rw [a11_at, a22_at]

/-- m3 = a11 · plane 2 -/
private theorem m3_at (x : Vec Ideal S512x2048 .f32) (s : Vec Ideal S7x1024x1024 .bf16) (r : Fin 256) (n : Fin 1024) :
    k0_pay1 (k0_pay15 (a11 x)) (k0_pay24 (pl2 s)) (constant S256x1024 .f32 0x00000000#32) (ix2 r n)
      = ∑ k : Fin 1024, x (ix2 (lo256 r) (lo1024 k)) * s (ix3 (2 : Fin 7) n k) := by
  unfold k0_pay1 k0_pay15 k0_pay24
  dsimp only
  rw [product_apply]
  refine Finset.sum_congr rfl fun k _ => ?_
  rw [plane2_at]
  show a11 x (ix2 r k) * _ = _
  rw [a11_at]

/-- m4 = a22 · plane 3 -/
private theorem m4_at (x : Vec Ideal S512x2048 .f32) (s : Vec Ideal S7x1024x1024 .bf16) (r : Fin 256) (n : Fin 1024) :
    k0_pay21 (a22 x) (pl3 s) (ix2 r n)
      = ∑ k : Fin 1024, x (ix2 (hi256 r) (hi1024 k)) * s (ix3 (3 : Fin 7) n k) := by
  unfold k0_pay21 k0_pay18
  dsimp only
  rw [product_apply]
  refine Finset.sum_congr rfl fun k _ => ?_
  rw [plane3_at]
  show a22 x (ix2 r k) * _ = _
  rw [a22_at]

/-- m5 = (a11 + a12) · plane 4 -/
private theorem m5_at (x : Vec Ideal S512x2048 .f32) (s : Vec Ideal S7x1024x1024 .bf16) (r : Fin 256) (n : Fin 1024) :
    k0_pay22 (a11 x) (a12 x) (pl4 s) (ix2 r n)
      = ∑ k : Fin 1024, (x (ix2 (lo256 r) (lo1024 k)) + x (ix2 (lo256 r) (hi1024 k))) * s (ix3 (4 : Fin 7) n k) := by
  unfold k0_pay22 k0_pay15 k0_pay16
  dsimp only
  rw [product_apply]
  refine Finset.sum_congr rfl fun k _ => ?_
  rw [plane4_at]
  show (a11 x (ix2 r k) + a12 x (ix2 r k)) * _ = _
  rw [a11_at, a12_at]

/-- m7 = (a12 - a22) · plane 6 -/
private theorem m7_at (x : Vec Ideal S512x2048 .f32) (s : Vec Ideal S7x1024x1024 .bf16) (r : Fin 256) (n : Fin 1024) :
    matmul dot_S256x1024_S1024x1024_S256x1024_1_1_0_0_n_n none (subf (k0_pay16 (a12 x)) (k0_pay18 (a22 x)) : FVec Ideal S256x1024 .bf16)
        (shapeCast S1024x1024 (pl6 s) shapeCasts_S1x1024x1024_S1024x1024 : FVec Ideal S1024x1024 .bf16) (constant S256x1024 .f32 0x00000000#32) (ix2 r n)
      = ∑ k : Fin 1024, (x (ix2 (lo256 r) (hi1024 k)) - x (ix2 (hi256 r) (hi1024 k))) * s (ix3 (6 : Fin 7) n k) := by
  rw [product_apply]
  refine Finset.sum_congr rfl fun k _ => ?_
  rw [plane6_at]
  show (a12 x (ix2 r k) - a22 x (ix2 r k)) * _ = _
  rw [a12_at, a22_at]

/-- The lower half of the bias row, spread down the rows, at an entry. -/
private theorem biasLo_at (b : Vec Ideal S1x2048 .f32) (r : Fin 256) (n : Fin 1024) :
    broadcastTo S256x1024 (k0_pay19 (blo b)) broadcasts_S1x1024_S256x1024 (ix2 r n) = b (ix2 (0 : Fin 1) (lo1024 n)) := by
  unfold k0_pay19
  dsimp only
  rw [spread_apply, shapeCast_self, blo_at]

/-- The upper half of the bias row, spread down the rows, at an entry. -/
private theorem biasHi_at (b : Vec Ideal S1x2048 .f32) (r : Fin 256) (n : Fin 1024) :
    broadcastTo S256x1024 (k0_pay20 (bhi b)) broadcasts_S1x1024_S256x1024 (ix2 r n) = b (ix2 (0 : Fin 1) (hi1024 n)) := by
  unfold k0_pay20
  dsimp only
  rw [spread_apply, shapeCast_self, bhi_at]

/-! ## The two upper quadrants of the output block -/

/-- upper-left quadrant of the output block (rows 0..255, columns 0..1023):
    ((m1 + (m4 - m5)) + lower bias half) + m7 -/
theorem blockOut_upper_left (x : Vec Ideal S512x2048 .f32) (b : Vec Ideal S1x2048 .f32) (s : Vec Ideal S7x1024x1024 .bf16) (r : Fin 256) (n : Fin 1024) :
    blockOut x b s (ix2 (lo256 r) (lo1024 n))
      = (((∑ k : Fin 1024, (x (ix2 (lo256 r) (lo1024 k)) + x (ix2 (hi256 r) (hi1024 k))) * s (ix3 (0 : Fin 7) n k))
            + ((∑ k : Fin 1024, x (ix2 (hi256 r) (hi1024 k)) * s (ix3 (3 : Fin 7) n k))
                - (∑ k : Fin 1024, (x (ix2 (lo256 r) (lo1024 k)) + x (ix2 (lo256 r) (hi1024 k))) * s (ix3 (4 : Fin 7) n k))))
          + b (ix2 (0 : Fin 1) (lo1024 n)))
        + ∑ k : Fin 1024, (x (ix2 (lo256 r) (hi1024 k)) - x (ix2 (hi256 r) (hi1024 k))) * s (ix3 (6 : Fin 7) n k) := by
  have e : (ix2 (lo256 r) (lo1024 n) : S512x2048.Idx) = (Rect.unit (s := S512x2048) ![0, 0] S256x1024.size inb_S512x2048_S256x1024_0_0).emb (ix2 r n) :=
    funext fun a => Fin.ext (by
      match a with
      | ⟨0, _⟩ => show r.val = 0 + 1 * r.val; omega
      | ⟨1, _⟩ => show n.val = 0 + 1 * n.val; omega)
  unfold blockOut
  rw [e, View.canon_cons_emb]
  unfold k0_pay6
  show ((k0_pay4 (k0_pay15 (a11 x)) (k0_pay18 (a22 x)) (pl0 s) (ix2 r n)
          + (k0_pay21 (a22 x) (pl3 s) (ix2 r n) - k0_pay22 (a11 x) (a12 x) (pl4 s) (ix2 r n)))
        + broadcastTo S256x1024 (k0_pay19 (blo b)) broadcasts_S1x1024_S256x1024 (ix2 r n))
      + matmul dot_S256x1024_S1024x1024_S256x1024_1_1_0_0_n_n none (subf (k0_pay16 (a12 x)) (k0_pay18 (a22 x)) : FVec Ideal S256x1024 .bf16)
          (shapeCast S1024x1024 (pl6 s) shapeCasts_S1x1024x1024_S1024x1024 : FVec Ideal S1024x1024 .bf16) (constant S256x1024 .f32 0x00000000#32) (ix2 r n) = _
  rw [m1_at, m4_at, m5_at, biasLo_at, m7_at]

/-- upper-right quadrant (rows 0..255, columns 1024..2047): (m3 + m5) + upper bias half -/
theorem blockOut_upper_right (x : Vec Ideal S512x2048 .f32) (b : Vec Ideal S1x2048 .f32) (s : Vec Ideal S7x1024x1024 .bf16) (r : Fin 256) (n : Fin 1024) :
    blockOut x b s (ix2 (lo256 r) (hi1024 n))
      = ((∑ k : Fin 1024, x (ix2 (lo256 r) (lo1024 k)) * s (ix3 (2 : Fin 7) n k))
            + (∑ k : Fin 1024, (x (ix2 (lo256 r) (lo1024 k)) + x (ix2 (lo256 r) (hi1024 k))) * s (ix3 (4 : Fin 7) n k)))
          + b (ix2 (0 : Fin 1) (hi1024 n)) := by
  have e : (ix2 (lo256 r) (hi1024 n) : S512x2048.Idx) = (Rect.unit (s := S512x2048) ![0, 1024] S256x1024.size inb_S512x2048_S256x1024_0_1024).emb (ix2 r n) :=
    funext fun a => Fin.ext (by
      match a with
      | ⟨0, _⟩ => show r.val = 0 + 1 * r.val; omega
      | ⟨1, _⟩ => show 1024 + n.val = 1024 + 1 * n.val; omega)
  -- the entry lies right of the upper-left quadrant's columns
  have h1 : (ix2 (lo256 r) (hi1024 n) : S512x2048.Idx) ∉ (Rect.unit (s := S512x2048) ![0, 0] S256x1024.size inb_S512x2048_S256x1024_0_0).set := fun h => by
    have h' := (Rect.mem_set_unit.mp h) 1
    have h'' : (1024 + n.val : Nat) < 0 + 1024 := h'.2
    omega
  -- and above the lower-right quadrant's rows
  have h2 : (ix2 (lo256 r) (hi1024 n) : S512x2048.Idx) ∉ (Rect.unit (s := S512x2048) ![256, 1024] S256x1024.size inb_S512x2048_S256x1024_256_1024).set := fun h => by
    have h' := (Rect.mem_set_unit.mp h) 0
    have h'' : (256 : Nat) ≤ r.val := h'.1
    have := r.isLt
    omega
  unfold blockOut
  refine (View.canon_cons_of_not_mem _ _ ?_).trans ?_
  · exact h1
  refine (View.canon_cons_of_not_mem _ _ ?_).trans ?_
  · exact h2
  rw [e, View.canon_cons_emb]
  unfold k0_pay3
  show (k0_pay1 (k0_pay15 (a11 x)) (k0_pay24 (pl2 s)) (constant S256x1024 .f32 0x00000000#32) (ix2 r n)
          + k0_pay22 (a11 x) (a12 x) (pl4 s) (ix2 r n))
        + broadcastTo S256x1024 (k0_pay20 (bhi b)) broadcasts_S1x1024_S256x1024 (ix2 r n) = _
  rw [m3_at, m5_at, biasHi_at]

end Cert.KernelIdeal.Blocks

end
-- ==== Proof.BlockReadLower.lean ====
import proofs.«113140_g50525995270225_cont_8to1_c_264_20_alg».proof.Proof.MatmulRead
import Idealize.ShloMosaic.Lib.ValueIdx
import Idealize.ShloMosaic.Lib.Pipeline.Value
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.Halves

/-! ## The loads read at an entry -/

private theorem a11_at_lower (x : Vec Ideal S512x2048 .f32) (r : Fin 256) (k : Fin 1024) :
    a11 x (ix2 r k) = x (ix2 (lo256 r) (lo1024 k)) :=
  congrArg x (funext fun a => Fin.ext (by
    match a with
    | ⟨0, _⟩ => show 0 + 1 * r.val = r.val; omega
    | ⟨1, _⟩ => show 0 + 1 * k.val = k.val; omega))

private theorem a12_at_lower (x : Vec Ideal S512x2048 .f32) (r : Fin 256) (k : Fin 1024) :
    a12 x (ix2 r k) = x (ix2 (lo256 r) (hi1024 k)) :=
  congrArg x (funext fun a => Fin.ext (by
    match a with
    | ⟨0, _⟩ => show 0 + 1 * r.val = r.val; omega
    | ⟨1, _⟩ => show 1024 + 1 * k.val = 1024 + k.val; omega))

private theorem a21_at_lower (x : Vec Ideal S512x2048 .f32) (r : Fin 256) (k : Fin 1024) :
    a21 x (ix2 r k) = x (ix2 (hi256 r) (lo1024 k)) :=
  congrArg x (funext fun a => Fin.ext (by
    match a with
    | ⟨0, _⟩ => show 256 + 1 * r.val = 256 + r.val; omega
    | ⟨1, _⟩ => show 0 + 1 * k.val = k.val; omega))

private theorem a22_at_lower (x : Vec Ideal S512x2048 .f32) (r : Fin 256) (k : Fin 1024) :
    a22 x (ix2 r k) = x (ix2 (hi256 r) (hi1024 k)) :=
  congrArg x (funext fun a => Fin.ext (by
    match a with
    | ⟨0, _⟩ => show 256 + 1 * r.val = 256 + r.val; omega
    | ⟨1, _⟩ => show 1024 + 1 * k.val = 1024 + k.val; omega))

private theorem blo_at_lower (b : Vec Ideal S1x2048 .f32) (n : Fin 1024) :
    blo b (ix2 (0 : Fin 1) n) = b (ix2 (0 : Fin 1) (lo1024 n)) :=
  congrArg b (funext fun a => Fin.ext (by
    match a with
    | ⟨0, _⟩ => show 0 + 1 * 0 = 0; omega
    | ⟨1, _⟩ => show 0 + 1 * n.val = n.val; omega))

private theorem bhi_at_lower (b : Vec Ideal S1x2048 .f32) (n : Fin 1024) :
    bhi b (ix2 (0 : Fin 1) n) = b (ix2 (0 : Fin 1) (hi1024 n)) :=
  congrArg b (funext fun a => Fin.ext (by
    match a with
    | ⟨0, _⟩ => show 0 + 1 * 0 = 0; omega
    | ⟨1, _⟩ => show 1024 + 1 * n.val = 1024 + n.val; omega))

/-! ## The planes of the carried buffer read at an entry -/

private theorem pl0_at_lower (s : Vec Ideal S7x1024x1024 .bf16) (h : S1x1024x1024.ShapeCasts S1024x1024) (n k : Fin 1024) :
    shapeCast S1024x1024 (pl0 s) h (ix2 n k) = s (ix3 (0 : Fin 7) n k) :=
  (plane_apply (pl0 s) h n k).trans (congrArg s (funext fun a => Fin.ext (by
    match a with
    | ⟨0, _⟩ => show 0 + 1 * 0 = 0; omega
    | ⟨1, _⟩ => show 0 + 1 * n.val = n.val; omega
    | ⟨2, _⟩ => show 0 + 1 * k.val = k.val; omega)))

private theorem pl1_at_lower (s : Vec Ideal S7x1024x1024 .bf16) (h : S1x1024x1024.ShapeCasts S1024x1024) (n k : Fin 1024) :
    shapeCast S1024x1024 (pl1 s) h (ix2 n k) = s (ix3 (1 : Fin 7) n k) :=
  (plane_apply (pl1 s) h n k).trans (congrArg s (funext fun a => Fin.ext (by
    match a with
    | ⟨0, _⟩ => show 1 + 1 * 0 = 1; omega
    | ⟨1, _⟩ => show 0 + 1 * n.val = n.val; omega
    | ⟨2, _⟩ => show 0 + 1 * k.val = k.val; omega)))

private theorem pl2_at_lower (s : Vec Ideal S7x1024x1024 .bf16) (h : S1x1024x1024.ShapeCasts S1024x1024) (n k : Fin 1024) :
    shapeCast S1024x1024 (pl2 s) h (ix2 n k) = s (ix3 (2 : Fin 7) n k) :=
  (plane_apply (pl2 s) h n k).trans (congrArg s (funext fun a => Fin.ext (by
    match a with
    | ⟨0, _⟩ => show 2 + 1 * 0 = 2; omega
    | ⟨1, _⟩ => show 0 + 1 * n.val = n.val; omega
    | ⟨2, _⟩ => show 0 + 1 * k.val = k.val; omega)))

private theorem pl3_at_lower (s : Vec Ideal S7x1024x1024 .bf16) (h : S1x1024x1024.ShapeCasts S1024x1024) (n k : Fin 1024) :
    shapeCast S1024x1024 (pl3 s) h (ix2 n k) = s (ix3 (3 : Fin 7) n k) :=
  (plane_apply (pl3 s) h n k).trans (congrArg s (funext fun a => Fin.ext (by
    match a with
    | ⟨0, _⟩ => show 3 + 1 * 0 = 3; omega
    | ⟨1, _⟩ => show 0 + 1 * n.val = n.val; omega
    | ⟨2, _⟩ => show 0 + 1 * k.val = k.val; omega)))

private theorem pl5_at_lower (s : Vec Ideal S7x1024x1024 .bf16) (h : S1x1024x1024.ShapeCasts S1024x1024) (n k : Fin 1024) :
    shapeCast S1024x1024 (pl5 s) h (ix2 n k) = s (ix3 (5 : Fin 7) n k) :=
  (plane_apply (pl5 s) h n k).trans (congrArg s (funext fun a => Fin.ext (by
    match a with
    | ⟨0, _⟩ => show 5 + 1 * 0 = 5; omega
    | ⟨1, _⟩ => show 0 + 1 * n.val = n.val; omega
    | ⟨2, _⟩ => show 0 + 1 * k.val = k.val; omega)))

/-! ## The bias halves spread down the rows, read at an entry -/

private theorem spreadLo_at_lower (b : Vec Ideal S1x2048 .f32) (r : Fin 256) (n : Fin 1024) :
    broadcastTo S256x1024 (k0_pay19 (blo b)) broadcasts_S1x1024_S256x1024 (ix2 r n) = b (ix2 (0 : Fin 1) (lo1024 n)) := by
  unfold k0_pay19
  rw [spread_apply, shapeCast_self]
  exact blo_at_lower b n

private theorem spreadHi_at_lower (b : Vec Ideal S1x2048 .f32) (r : Fin 256) (n : Fin 1024) :
    broadcastTo S256x1024 (k0_pay20 (bhi b)) broadcasts_S1x1024_S256x1024 (ix2 r n) = b (ix2 (0 : Fin 1) (hi1024 n)) := by
  unfold k0_pay20
  rw [spread_apply, shapeCast_self]
  exact bhi_at_lower b n

/-! ## The five products that enter the lower quadrants, read at an entry -/

/-- first product: (a11 + a22) against plane 0 -/
private theorem prod1_at_lower (x : Vec Ideal S512x2048 .f32) (s : Vec Ideal S7x1024x1024 .bf16) (r : Fin 256) (n : Fin 1024) :
    k0_pay4 (k0_pay15 (a11 x)) (k0_pay18 (a22 x)) (pl0 s) (ix2 r n)
      = ∑ k : Fin 1024, (x (ix2 (lo256 r) (lo1024 k)) + x (ix2 (hi256 r) (hi1024 k))) * s (ix3 (0 : Fin 7) n k) := by
  unfold k0_pay4 k0_pay15 k0_pay18
  refine (product_apply _ _ r n).trans (Finset.sum_congr rfl fun k _ => ?_)
  rw [pl0_at_lower]
  show (a11 x (ix2 r k) + a22 x (ix2 r k)) * _ = _
  rw [a11_at_lower, a22_at_lower]

/-- second product: (a21 + a22) against plane 1 -/
private theorem prod2_at_lower (x : Vec Ideal S512x2048 .f32) (s : Vec Ideal S7x1024x1024 .bf16) (r : Fin 256) (n : Fin 1024) :
    k0_pay23 (a21 x) (a22 x) (pl1 s) (ix2 r n)
      = ∑ k : Fin 1024, (x (ix2 (hi256 r) (lo1024 k)) + x (ix2 (hi256 r) (hi1024 k))) * s (ix3 (1 : Fin 7) n k) := by
  unfold k0_pay23 k0_pay17 k0_pay18
  refine (product_apply _ _ r n).trans (Finset.sum_congr rfl fun k _ => ?_)
  rw [pl1_at_lower]
  show (a21 x (ix2 r k) + a22 x (ix2 r k)) * _ = _
  rw [a21_at_lower, a22_at_lower]

/-- third product: a11 against plane 2 -/
private theorem prod3_at_lower (x : Vec Ideal S512x2048 .f32) (s : Vec Ideal S7x1024x1024 .bf16) (r : Fin 256) (n : Fin 1024) :
    k0_pay1 (k0_pay15 (a11 x)) (k0_pay24 (pl2 s)) (constant S256x1024 .f32 0x00000000#32) (ix2 r n)
      = ∑ k : Fin 1024, x (ix2 (lo256 r) (lo1024 k)) * s (ix3 (2 : Fin 7) n k) := by
  unfold k0_pay1 k0_pay15 k0_pay24
  refine (product_apply _ _ r n).trans (Finset.sum_congr rfl fun k _ => ?_)
  rw [pl2_at_lower]
  show a11 x (ix2 r k) * _ = _
  rw [a11_at_lower]

/-- fourth product: a22 against plane 3 -/
private theorem prod4_at_lower (x : Vec Ideal S512x2048 .f32) (s : Vec Ideal S7x1024x1024 .bf16) (r : Fin 256) (n : Fin 1024) :
    k0_pay21 (a22 x) (pl3 s) (ix2 r n)
      = ∑ k : Fin 1024, x (ix2 (hi256 r) (hi1024 k)) * s (ix3 (3 : Fin 7) n k) := by
  unfold k0_pay21 k0_pay18
  refine (product_apply _ _ r n).trans (Finset.sum_congr rfl fun k _ => ?_)
  rw [pl3_at_lower]
  show a22 x (ix2 r k) * _ = _
  rw [a22_at_lower]

/-- sixth product: (a21 - a11) against plane 5 -/
private theorem prod6_at_lower (x : Vec Ideal S512x2048 .f32) (s : Vec Ideal S7x1024x1024 .bf16) (r : Fin 256) (n : Fin 1024) :
    matmul dot_S256x1024_S1024x1024_S256x1024_1_1_0_0_n_n none
        (subf (k0_pay17 (a21 x)) (k0_pay15 (a11 x)) : FVec Ideal S256x1024 .bf16)
        (shapeCast S1024x1024 (pl5 s) shapeCasts_S1x1024x1024_S1024x1024 : FVec Ideal S1024x1024 .bf16)
        (constant S256x1024 .f32 0x00000000#32) (ix2 r n)
      = ∑ k : Fin 1024, (x (ix2 (hi256 r) (lo1024 k)) - x (ix2 (lo256 r) (lo1024 k))) * s (ix3 (5 : Fin 7) n k) := by
  unfold k0_pay17 k0_pay15
  refine (product_apply _ _ r n).trans (Finset.sum_congr rfl fun k _ => ?_)
  rw [pl5_at_lower]
  show (a21 x (ix2 r k) - a11 x (ix2 r k)) * _ = _
  rw [a21_at_lower, a11_at_lower]

/-! ## The two lower quadrants -/

/-- lower-left quadrant (rows 256..511, columns 0..1023): the second product plus the fourth, plus the first
    half of the bias row. -/
theorem blockOut_lower_left (x : Vec Ideal S512x2048 .f32) (b : Vec Ideal S1x2048 .f32) (s : Vec Ideal S7x1024x1024 .bf16) (r : Fin 256) (n : Fin 1024) :
    blockOut x b s (ix2 (hi256 r) (lo1024 n))
      = ((∑ k : Fin 1024, (x (ix2 (hi256 r) (lo1024 k)) + x (ix2 (hi256 r) (hi1024 k))) * s (ix3 (1 : Fin 7) n k))
            + (∑ k : Fin 1024, x (ix2 (hi256 r) (hi1024 k)) * s (ix3 (3 : Fin 7) n k)))
          + b (ix2 (0 : Fin 1) (lo1024 n)) := by
  -- the entry lies under the last-listed piece, the one stored at rows 256.., columns 0..
  have e : (ix2 (hi256 r) (lo1024 n) : S512x2048.Idx) = (Rect.unit (s := S512x2048) ![256, 0] S256x1024.size inb_S512x2048_S256x1024_256_0).emb (ix2 r n) :=
    funext fun a => Fin.ext (by
      match a with
      | ⟨0, _⟩ => show 256 + r.val = 256 + 1 * r.val; omega
      | ⟨1, _⟩ => show n.val = 0 + 1 * n.val; omega)
  -- and under none of the three listed before it: its row is past the upper pieces, its column before the right one
  have h0 : (ix2 (hi256 r) (lo1024 n) : S512x2048.Idx) ∉ (Rect.unit (s := S512x2048) ![0, 0] S256x1024.size inb_S512x2048_S256x1024_0_0).set := fun h => by
    have : 256 + r.val < 0 + 256 := ((Rect.mem_set_unit.mp h) 0).2
    omega
  have h1 : (ix2 (hi256 r) (lo1024 n) : S512x2048.Idx) ∉ (Rect.unit (s := S512x2048) ![256, 1024] S256x1024.size inb_S512x2048_S256x1024_256_1024).set := fun h => by
    have : 1024 ≤ n.val := ((Rect.mem_set_unit.mp h) 1).1
    have := n.isLt
    omega
  have h2 : (ix2 (hi256 r) (lo1024 n) : S512x2048.Idx) ∉ (Rect.unit (s := S512x2048) ![0, 1024] S256x1024.size inb_S512x2048_S256x1024_0_1024).set := fun h => by
    have : 256 + r.val < 0 + 256 := ((Rect.mem_set_unit.mp h) 0).2
    omega
  unfold blockOut
  refine (View.canon_cons_of_not_mem _ _ ?_).trans ?_
  · exact h0
  refine (View.canon_cons_of_not_mem _ _ ?_).trans ?_
  · exact h1
  refine (View.canon_cons_of_not_mem _ _ ?_).trans ?_
  · exact h2
  refine (congrArg (View.canon _) e).trans ?_
  refine (View.canon_cons_emb _ _ _ _).trans ?_
  unfold k0_pay2
  show (k0_pay23 (a21 x) (a22 x) (pl1 s) (ix2 r n) + k0_pay21 (a22 x) (pl3 s) (ix2 r n))
      + broadcastTo S256x1024 (k0_pay19 (blo b)) broadcasts_S1x1024_S256x1024 (ix2 r n) = _
  rw [prod2_at_lower, prod4_at_lower, spreadLo_at_lower]

/-- lower-right quadrant (rows 256..511, columns 1024..2047): the first product, plus the third less the second,
    plus the second half of the bias row, plus the sixth product. -/
theorem blockOut_lower_right (x : Vec Ideal S512x2048 .f32) (b : Vec Ideal S1x2048 .f32) (s : Vec Ideal S7x1024x1024 .bf16) (r : Fin 256) (n : Fin 1024) :
    blockOut x b s (ix2 (hi256 r) (hi1024 n))
      = (((∑ k : Fin 1024, (x (ix2 (lo256 r) (lo1024 k)) + x (ix2 (hi256 r) (hi1024 k))) * s (ix3 (0 : Fin 7) n k))
            + ((∑ k : Fin 1024, x (ix2 (lo256 r) (lo1024 k)) * s (ix3 (2 : Fin 7) n k))
                - (∑ k : Fin 1024, (x (ix2 (hi256 r) (lo1024 k)) + x (ix2 (hi256 r) (hi1024 k))) * s (ix3 (1 : Fin 7) n k))))
          + b (ix2 (0 : Fin 1) (hi1024 n)))
        + ∑ k : Fin 1024, (x (ix2 (hi256 r) (lo1024 k)) - x (ix2 (lo256 r) (lo1024 k))) * s (ix3 (5 : Fin 7) n k) := by
  -- the entry lies under the second-listed piece, the one stored at rows 256.., columns 1024..
  have e : (ix2 (hi256 r) (hi1024 n) : S512x2048.Idx) = (Rect.unit (s := S512x2048) ![256, 1024] S256x1024.size inb_S512x2048_S256x1024_256_1024).emb (ix2 r n) :=
    funext fun a => Fin.ext (by
      match a with
      | ⟨0, _⟩ => show 256 + r.val = 256 + 1 * r.val; omega
      | ⟨1, _⟩ => show 1024 + n.val = 1024 + 1 * n.val; omega)
  -- and not under the first-listed one: its row is past rows 0..255
  have h0 : (ix2 (hi256 r) (hi1024 n) : S512x2048.Idx) ∉ (Rect.unit (s := S512x2048) ![0, 0] S256x1024.size inb_S512x2048_S256x1024_0_0).set := fun h => by
    have : 256 + r.val < 0 + 256 := ((Rect.mem_set_unit.mp h) 0).2
    omega
  unfold blockOut
  refine (View.canon_cons_of_not_mem _ _ ?_).trans ?_
  · exact h0
  refine (congrArg (View.canon _) e).trans ?_
  refine (View.canon_cons_emb _ _ _ _).trans ?_
  unfold k0_pay5
  show ((k0_pay4 (k0_pay15 (a11 x)) (k0_pay18 (a22 x)) (pl0 s) (ix2 r n)
          + (k0_pay1 (k0_pay15 (a11 x)) (k0_pay24 (pl2 s)) (constant S256x1024 .f32 0x00000000#32) (ix2 r n)
              - k0_pay23 (a21 x) (a22 x) (pl1 s) (ix2 r n)))
        + broadcastTo S256x1024 (k0_pay20 (bhi b)) broadcasts_S1x1024_S256x1024 (ix2 r n))
      + matmul dot_S256x1024_S1024x1024_S256x1024_1_1_0_0_n_n none
          (subf (k0_pay17 (a21 x)) (k0_pay15 (a11 x)) : FVec Ideal S256x1024 .bf16)
          (shapeCast S1024x1024 (pl5 s) shapeCasts_S1x1024x1024_S1024x1024 : FVec Ideal S1024x1024 .bf16)
          (constant S256x1024 .f32 0x00000000#32) (ix2 r n) = _
  rw [prod1_at_lower, prod3_at_lower, prod2_at_lower, spreadHi_at_lower, prod6_at_lower]

end Cert.KernelIdeal.Blocks

end
-- ==== Proof.SevenProducts.lean ====
/-
  One level of the seven-product scheme for a matrix product, entry by entry.

  A product C = A·B, with A cut into quadrants a11 a12 / a21 a22 and B into quadrants w00 w01 / w10 w11
  (B enters transposed: an entry of C pairs a row of A with a row of the weights), is computed from the
  seven products

    m1 = (a11 + a22)·(w00 + w11)      m2 = (a21 + a22)·w00          m3 = a11·(w10 - w11)
    m4 = a22·(w01 - w00)              m5 = (a11 + a12)·w11
    m6 = (a21 - a11)·(w00 + w10)      m7 = (a12 - a22)·(w01 + w11)

  recombined as

    c11 = m1 + m4 - m5 + m7           c12 = m3 + m5
    c21 = m2 + m4                     c22 = m1 + m3 - m2 + m6.

  Here one entry of each result quadrant is stated, with a bias entry β added.  The sums over the contracted
  index are taken in the extended reals, where subtraction does not cancel in general; since every entry is a
  real number, every intermediate value is a real number, and the identities reduce to identities of real
  sums, which hold term by term.
-/
import proofs.«113140_g50525995270225_cont_8to1_c_264_20_alg».proof.Proof.Halves
import Mathlib.Data.EReal.Operations
import Mathlib.Algebra.BigOperators.Fin
import Mathlib.Tactic.Ring
import Mathlib.Tactic.Linarith

open scoped BigOperators

namespace Cert.SevenProducts

/-- A finite sum of reals, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- The real identity behind the upper-left quadrant: m1 + (m4 - m5) + m7 = a11·w00 + a12·w01, summed over
the contracted index. -/
private theorem real11 (a11 a12 a22 w00 w01 w11 : Fin 1024 → ℝ) :
    (∑ k : Fin 1024, (a11 k + a22 k) * (w00 k + w11 k))
        + ((∑ k : Fin 1024, a22 k * (w01 k - w00 k)) - (∑ k : Fin 1024, (a11 k + a12 k) * w11 k))
        + (∑ k : Fin 1024, (a12 k - a22 k) * (w01 k + w11 k))
      = (∑ k : Fin 1024, w00 k * a11 k) + (∑ k : Fin 1024, w01 k * a12 k) := by
  rw [← Finset.sum_sub_distrib, ← Finset.sum_add_distrib, ← Finset.sum_add_distrib,
    ← Finset.sum_add_distrib]
  exact Finset.sum_congr rfl (fun k _ => by ring)

/-- The real identity behind the upper-right quadrant: m3 + m5 = a11·w10 + a12·w11, summed. -/
private theorem real12 (a11 a12 w10 w11 : Fin 1024 → ℝ) :
    (∑ k : Fin 1024, a11 k * (w10 k - w11 k)) + (∑ k : Fin 1024, (a11 k + a12 k) * w11 k)
      = (∑ k : Fin 1024, w10 k * a11 k) + (∑ k : Fin 1024, w11 k * a12 k) := by
  rw [← Finset.sum_add_distrib, ← Finset.sum_add_distrib]
  exact Finset.sum_congr rfl (fun k _ => by ring)

/-- The real identity behind the lower-left quadrant: m2 + m4 = a21·w00 + a22·w01, summed. -/
private theorem real21 (a21 a22 w00 w01 : Fin 1024 → ℝ) :
    (∑ k : Fin 1024, (a21 k + a22 k) * w00 k) + (∑ k : Fin 1024, a22 k * (w01 k - w00 k))
      = (∑ k : Fin 1024, w00 k * a21 k) + (∑ k : Fin 1024, w01 k * a22 k) := by
  rw [← Finset.sum_add_distrib, ← Finset.sum_add_distrib]
  exact Finset.sum_congr rfl (fun k _ => by ring)

/-- The real identity behind the lower-right quadrant: m1 + (m3 - m2) + m6 = a21·w10 + a22·w11, summed. -/
private theorem real22 (a11 a21 a22 w00 w10 w11 : Fin 1024 → ℝ) :
    (∑ k : Fin 1024, (a11 k + a22 k) * (w00 k + w11 k))
        + ((∑ k : Fin 1024, a11 k * (w10 k - w11 k)) - (∑ k : Fin 1024, (a21 k + a22 k) * w00 k))
        + (∑ k : Fin 1024, (a21 k - a11 k) * (w00 k + w10 k))
      = (∑ k : Fin 1024, w10 k * a21 k) + (∑ k : Fin 1024, w11 k * a22 k) := by
  rw [← Finset.sum_sub_distrib, ← Finset.sum_add_distrib, ← Finset.sum_add_distrib,
    ← Finset.sum_add_distrib]
  exact Finset.sum_congr rfl (fun k _ => by ring)

/-- Upper-left result quadrant.  With m1 = (a11 + a22)·(w00 + w11), m4 = a22·(w01 - w00),
m5 = (a11 + a12)·w11 and m7 = (a12 - a22)·(w01 + w11), the recombination ((m1 + (m4 - m5)) + β) + m7 is the
entry a11·w00 + a12·w01 of the product, plus the bias. -/
theorem quad11 (a11 a12 a22 w00 w01 w11 : Fin 1024 → ℝ) (β : ℝ) :
    (((∑ k : Fin 1024, ((a11 k : EReal) + (a22 k : EReal)) * ((w00 k : EReal) + (w11 k : EReal)))
        + ((∑ k : Fin 1024, (a22 k : EReal) * ((w01 k : EReal) - (w00 k : EReal)))
            - (∑ k : Fin 1024, ((a11 k : EReal) + (a12 k : EReal)) * (w11 k : EReal))))
      + (β : EReal))
      + (∑ k : Fin 1024, ((a12 k : EReal) - (a22 k : EReal)) * ((w01 k : EReal) + (w11 k : EReal)))
    = ((∑ k : Fin 1024, (w00 k : EReal) * (a11 k : EReal)) + (∑ k : Fin 1024, (w01 k : EReal) * (a12 k : EReal))) + (β : EReal) := by
  simp only [← EReal.coe_add, ← EReal.coe_sub, ← EReal.coe_mul, coe_sum]
  rw [EReal.coe_eq_coe_iff]
  have h := real11 a11 a12 a22 w00 w01 w11
  linarith

/-- Upper-right result quadrant.  With m3 = a11·(w10 - w11) and m5 = (a11 + a12)·w11, the recombination
(m3 + m5) + β is the entry a11·w10 + a12·w11 of the product, plus the bias. -/
theorem quad12 (a11 a12 w10 w11 : Fin 1024 → ℝ) (β : ℝ) :
    ((∑ k : Fin 1024, (a11 k : EReal) * ((w10 k : EReal) - (w11 k : EReal)))
        + (∑ k : Fin 1024, ((a11 k : EReal) + (a12 k : EReal)) * (w11 k : EReal)))
      + (β : EReal)
    = ((∑ k : Fin 1024, (w10 k : EReal) * (a11 k : EReal)) + (∑ k : Fin 1024, (w11 k : EReal) * (a12 k : EReal))) + (β : EReal) := by
  simp only [← EReal.coe_add, ← EReal.coe_sub, ← EReal.coe_mul, coe_sum]
  rw [EReal.coe_eq_coe_iff]
  have h := real12 a11 a12 w10 w11
  linarith

/-- Lower-left result quadrant.  With m2 = (a21 + a22)·w00 and m4 = a22·(w01 - w00), the recombination
(m2 + m4) + β is the entry a21·w00 + a22·w01 of the product, plus the bias. -/
theorem quad21 (a21 a22 w00 w01 : Fin 1024 → ℝ) (β : ℝ) :
    ((∑ k : Fin 1024, ((a21 k : EReal) + (a22 k : EReal)) * (w00 k : EReal))
        + (∑ k : Fin 1024, (a22 k : EReal) * ((w01 k : EReal) - (w00 k : EReal))))
      + (β : EReal)
    = ((∑ k : Fin 1024, (w00 k : EReal) * (a21 k : EReal)) + (∑ k : Fin 1024, (w01 k : EReal) * (a22 k : EReal))) + (β : EReal) := by
  simp only [← EReal.coe_add, ← EReal.coe_sub, ← EReal.coe_mul, coe_sum]
  rw [EReal.coe_eq_coe_iff]
  have h := real21 a21 a22 w00 w01
  linarith

/-- Lower-right result quadrant.  With m1 = (a11 + a22)·(w00 + w11), m3 = a11·(w10 - w11),
m2 = (a21 + a22)·w00 and m6 = (a21 - a11)·(w00 + w10), the recombination ((m1 + (m3 - m2)) + β) + m6 is the
entry a21·w10 + a22·w11 of the product, plus the bias. -/
theorem quad22 (a11 a21 a22 w00 w10 w11 : Fin 1024 → ℝ) (β : ℝ) :
    (((∑ k : Fin 1024, ((a11 k : EReal) + (a22 k : EReal)) * ((w00 k : EReal) + (w11 k : EReal)))
        + ((∑ k : Fin 1024, (a11 k : EReal) * ((w10 k : EReal) - (w11 k : EReal)))
            - (∑ k : Fin 1024, ((a21 k : EReal) + (a22 k : EReal)) * (w00 k : EReal))))
      + (β : EReal))
      + (∑ k : Fin 1024, ((a21 k : EReal) - (a11 k : EReal)) * ((w00 k : EReal) + (w10 k : EReal)))
    = ((∑ k : Fin 1024, (w10 k : EReal) * (a21 k : EReal)) + (∑ k : Fin 1024, (w11 k : EReal) * (a22 k : EReal))) + (β : EReal) := by
  simp only [← EReal.coe_add, ← EReal.coe_sub, ← EReal.coe_mul, coe_sum]
  rw [EReal.coe_eq_coe_iff]
  have h := real22 a11 a21 a22 w00 w10 w11
  linarith

end Cert.SevenProducts
-- ==== Proof.BlockLinear.lean ====
/-
  The output block is the linear map.  With real-valued inputs, the output block computed by the seven-product
  scheme from the seven combinations of the weight array is, at every entry (a, o) of the block, the plain
  ∑ k, weight(o, k) · input(a, k) + bias(o) over all 2048 input features: quadrant by quadrant, the block's entry
  is read as sums over the half feature range, the planes of the carried buffer as combinations of weight
  quadrants, and the seven-product identity of that quadrant recombines them; the sum over 2048 features splits
  into its two halves.
-/
import proofs.«113140_g50525995270225_cont_8to1_c_264_20_alg».proof.Proof.CombosRead
import proofs.«113140_g50525995270225_cont_8to1_c_264_20_alg».proof.Proof.BlockReadUpper
import proofs.«113140_g50525995270225_cont_8to1_c_264_20_alg».proof.Proof.BlockReadLower
import proofs.«113140_g50525995270225_cont_8to1_c_264_20_alg».proof.Proof.SevenProducts

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.Halves Cert.SevenProducts

/-- A row of a 512-row block lies in the upper or in the lower half. -/
theorem row_cases (a : Fin 512) : (∃ r : Fin 256, a = lo256 r) ∨ (∃ r : Fin 256, a = hi256 r) := by
  by_cases h : a.val < 256
  · exact Or.inl ⟨⟨a.val, h⟩, Fin.ext rfl⟩
  · exact Or.inr ⟨⟨a.val - 256, by have := a.isLt; omega⟩, Fin.ext (by show a.val = 256 + (a.val - 256); omega)⟩

/-- A feature of 2048 lies in the first or in the second half. -/
theorem col_cases (a : Fin 2048) : (∃ n : Fin 1024, a = lo1024 n) ∨ (∃ n : Fin 1024, a = hi1024 n) := by
  by_cases h : a.val < 1024
  · exact Or.inl ⟨⟨a.val, h⟩, Fin.ext rfl⟩
  · exact Or.inr ⟨⟨a.val - 1024, by have := a.isLt; omega⟩, Fin.ext (by show a.val = 1024 + (a.val - 1024); omega)⟩

/-- Entry (a, o) of the output block over real inputs: ∑ k, weight(o, k) · input(a, k), plus bias(o). -/
theorem blockOut_linear (X : S512x2048.Idx → ℝ) (W : S2048x2048.Idx → ℝ) (B : S1x2048.Idx → ℝ) (a : Fin 512) (o : Fin 2048) :
    blockOut (F := Ideal) (fun j => ((X j : ℝ) : EReal)) (fun j => ((B j : ℝ) : EReal))
        (combos (F := Ideal) (fun j => ((W j : ℝ) : EReal))) (ix2 a o)
      = (∑ k : Fin 2048, ((W (ix2 o k) : ℝ) : EReal) * ((X (ix2 a k) : ℝ) : EReal)) + ((B (ix2 (0 : Fin 1) o) : ℝ) : EReal) := by
  rcases row_cases a with ⟨r, rfl⟩ | ⟨r, rfl⟩ <;> rcases col_cases o with ⟨n, rfl⟩ | ⟨n, rfl⟩
  · rw [blockOut_upper_left]
    simp only [combos_plane0, combos_plane3, combos_plane4, combos_plane6]
    rw [sum_halves]
    exact quad11 (fun k => X (ix2 (lo256 r) (lo1024 k))) (fun k => X (ix2 (lo256 r) (hi1024 k))) (fun k => X (ix2 (hi256 r) (hi1024 k)))
      (fun k => W (ix2 (lo1024 n) (lo1024 k))) (fun k => W (ix2 (lo1024 n) (hi1024 k))) (fun k => W (ix2 (hi1024 n) (hi1024 k))) (B (ix2 (0 : Fin 1) (lo1024 n)))
  · rw [blockOut_upper_right]
    simp only [combos_plane2, combos_plane4]
    rw [sum_halves]
    exact quad12 (fun k => X (ix2 (lo256 r) (lo1024 k))) (fun k => X (ix2 (lo256 r) (hi1024 k)))
      (fun k => W (ix2 (hi1024 n) (lo1024 k))) (fun k => W (ix2 (hi1024 n) (hi1024 k))) (B (ix2 (0 : Fin 1) (hi1024 n)))
  · rw [blockOut_lower_left]
    simp only [combos_plane1, combos_plane3]
    rw [sum_halves]
    exact quad21 (fun k => X (ix2 (hi256 r) (lo1024 k))) (fun k => X (ix2 (hi256 r) (hi1024 k)))
      (fun k => W (ix2 (lo1024 n) (lo1024 k))) (fun k => W (ix2 (lo1024 n) (hi1024 k))) (B (ix2 (0 : Fin 1) (lo1024 n)))
  · rw [blockOut_lower_right]
    simp only [combos_plane0, combos_plane1, combos_plane2, combos_plane5]
    rw [sum_halves]
    exact quad22 (fun k => X (ix2 (lo256 r) (lo1024 k))) (fun k => X (ix2 (hi256 r) (lo1024 k))) (fun k => X (ix2 (hi256 r) (hi1024 k)))
      (fun k => W (ix2 (lo1024 n) (lo1024 k))) (fun k => W (ix2 (hi1024 n) (lo1024 k))) (fun k => W (ix2 (hi1024 n) (hi1024 k))) (B (ix2 (0 : Fin 1) (hi1024 n)))

end Cert.KernelIdeal.Blocks

end
-- ==== Proof.Final.lean ====
/-
  The kernel's result array.  At every grid point the block the output window writes back is the output block
  of that point's 512 input rows; with real-valued arguments it is the corresponding 512 rows of the linear map
  ∑ k, weight(o, k) · input(t, k) + bias(o).  The sixteen blocks tile the array, so after the run the result
  array is the linear map of the arguments.
-/
import proofs.«113140_g50525995270225_cont_8to1_c_264_20_alg».proof.Proof.Carried
import proofs.«113140_g50525995270225_cont_8to1_c_264_20_alg».proof.Proof.BlockLinear
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Idealize.ShloMosaic.StableHlo Cert.Halves

variable (m : (ℓ : Loc nD τ sig) → Buf (Elt Ideal) ℓ) (ρ : Dev nD → PrngReg)

/-- The linear map on whole arrays: entry (t, o) is ∑ k, weight(o, k) · input(t, k), plus bias(o). -/
def linear (a0 : S8192x2048.Idx → EReal) (a1 : S2048x2048.Idx → EReal) (a2 : S2048.Idx → EReal) : S8192x2048.Idx → EReal :=
  fun i => (∑ k : Fin 2048, a1 (ix2 (i 1) k) * a0 (ix2 (i 0) k)) + a2 (ix1 (i 1))

/-- The input and output windows sit at block (t, 0) at point t. -/
theorem moving_windows : ∀ t : Fin cfg0.N, win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

/-- The bias row the region finds is the bias vector laid out as one row. -/
theorem barr_apply (c : Dev nD) (o : Fin 2048) :
    barr m c (ix2 (0 : Fin 1) o) = m ((c : Thread nD τ).loc main_arg2) (ix1 o) := by
  have e : (barr m c : S1x2048.Idx → EReal) = shapeCast S1x2048 (m ((c : Thread nD τ).loc main_arg2)) shapeCasts_S2048_S1x2048 := by
    show V m c main_v0 = _
    dsimp only [Gen.V, Gen.hostOps0]
    after_results
    rfl
  rw [e]
  refine shapeCast_apply _ _ (ix2 (0 : Fin 1) o) (ix1 o) ?_
  rw [Shape.rowMajor_val_one, Shape.rowMajor_val_two]
  show o.val = 0 * 2048 + o.val
  omega

/-- What point t writes back is block t of the linear map of the arguments, when the arguments are real-valued. -/
theorem flushed_eq (X : S8192x2048.Idx → ℝ) (W : S2048x2048.Idx → ℝ) (B : S2048.Idx → ℝ) (c : Dev nD)
    (h0 : m ((c : Thread nD τ).loc main_arg0) = fun i => ((X i : ℝ) : EReal))
    (h1 : m ((c : Thread nD τ).loc main_arg1) = fun i => ((W i : ℝ) : EReal))
    (h2 : m ((c : Thread nD τ).loc main_arg2) = fun i => ((B i : ℝ) : EReal)) (t : Fin cfg0.N) :
    (dats m 0 c).flushed 3 t = ((cfg0.win 3).blk t).view.read (Elt Ideal)
      (linear (m ((c : Thread nD τ).loc main_arg0)) (m ((c : Thread nD τ).loc main_arg1)) (m ((c : Thread nD τ).loc main_arg2))) := by
  obtain ⟨q0, q1, q2, q3⟩ := moving_windows t
  rw [Value.flushed3, out_eq]
  have hx : xblk m c t = fun j => ((X (((cfg0.win 0).blk t).view.emb j) : ℝ) : EReal) := by
    funext j
    show (iblk m c 0 t : Vec Ideal S512x2048 .f32) j = _
    unfold iblk
    rw [View.read_apply]
    show V m c main_arg0 _ = _
    rw [V_main_arg0, h0]
  have hw : warr m c = fun j => ((W j : ℝ) : EReal) := by
    show V m c main_arg1 = _
    rw [V_main_arg1, h1]
  have hb : barr m c = fun j => ((B (ix1 (j 1)) : ℝ) : EReal) := by
    funext j
    obtain ⟨z, o, rfl⟩ : ∃ (z : Fin 1) (o : Fin 2048), j = ix2 z o := ⟨j 0, j 1, eq_ix2 j⟩
    obtain rfl : z = 0 := Subsingleton.elim _ _
    rw [barr_apply, h2]
  rw [hx, hw, hb]
  funext j
  obtain ⟨a, o, rfl⟩ : ∃ (a : Fin 512) (o : Fin 2048), j = ix2 a o := ⟨j 0, j 1, eq_ix2 j⟩
  show blockOut (F := Ideal) _ _ _ (ix2 a o) = linear _ _ _ (((cfg0.win 3).blk t).view.emb (ix2 a o))
  refine (blockOut_linear (fun j => X (((cfg0.win 0).blk t).view.emb j)) W (fun j => B (ix1 (j 1))) a o).trans ?_
  rw [h0, h1, h2]
  unfold linear
  dsimp only
  have e1 : (((cfg0.win 3).blk t).view.emb (ix2 a o)) 1 = o :=
    Fin.ext (by show win0_3.index t (1 : Fin 2) * 2048 + 1 * o.val = o.val; rw [q3]; omega)
  have e0 : ∀ k : Fin 2048, ((cfg0.win 0).blk t).view.emb (ix2 a k) = ix2 ((((cfg0.win 3).blk t).view.emb (ix2 a o)) 0) k :=
    fun k => funext fun d => Fin.ext (by
      match d with
      | ⟨0, _⟩ => show win0_0.index t (0 : Fin 2) * 512 + 1 * a.val = win0_3.index t (0 : Fin 2) * 512 + 1 * a.val; rw [q0, q2]
      | ⟨1, _⟩ => show win0_0.index t (1 : Fin 2) * 2048 + 1 * k.val = k.val; rw [q1]; omega)
  rw [e1]
  simp only [e0]
  rfl

/-- Every entry of the result array lies in the block of the point t = row / 512. -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  have hlt : (i 0).val / 512 < cfg0.N := by rw [hN]; omega
  obtain ⟨-, -, q2, q3⟩ := moving_windows ⟨(i 0).val / 512, hlt⟩
  refine ⟨⟨(i 0).val / 512, hlt⟩, flush0_3 _, ?_⟩
  show i ∈ ((View.whole main_v1).slice (win0_3.rect ⟨(i 0).val / 512, hlt⟩)).set
  rw [View.set_slice_whole, Rect.mem_set_unit]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [q2]
    show (i 0).val / 512 * 512 ≤ (i 0).val ∧ (i 0).val < (i 0).val / 512 * 512 + 512
    omega
  | ⟨1, _⟩ =>
    show win0_3.index ⟨(i 0).val / 512, hlt⟩ (1 : Fin 2) * 2048 ≤ (i 1).val
      ∧ (i 1).val < win0_3.index ⟨(i 0).val / 512, hlt⟩ (1 : Fin 2) * 2048 + 2048
    rw [q3]
    omega

/-- The result array after the run is the linear map of the arguments. -/
theorem final_eq (X : S8192x2048.Idx → ℝ) (W : S2048x2048.Idx → ℝ) (B : S2048.Idx → ℝ) (c : Dev nD)
    (h0 : m ((c : Thread nD τ).loc main_arg0) = fun i => ((X i : ℝ) : EReal))
    (h1 : m ((c : Thread nD τ).loc main_arg1) = fun i => ((W i : ℝ) : EReal))
    (h2 : m ((c : Thread nD τ).loc main_arg2) = fun i => ((B i : ℝ) : EReal)) :
    (dats m 0 c).arrAt 3 cfg0.N
      = linear (m ((c : Thread nD τ).loc main_arg0)) (m ((c : Thread nD τ).loc main_arg1)) (m ((c : Thread nD τ).loc main_arg2)) :=
  (dats m 0 c).arrAt_eq_of_cover 3 _ (fun t _ => flushed_eq m X W B c h0 h1 h2 t) covered

/-- The kernel's run, with the result array named: the linear map of real-valued arguments. -/
theorem run_linear
    (hreal : ∀ c : Dev nD, ∃ (X : S8192x2048.Idx → ℝ) (W : S2048x2048.Idx → ℝ) (B : S2048.Idx → ℝ),
      m ((c : Thread nD τ).loc main_arg0) = (fun i => ((X i : ℝ) : EReal))
      ∧ m ((c : Thread nD τ).loc main_arg1) = (fun i => ((W i : ℝ) : EReal))
      ∧ m ((c : Thread nD τ).loc main_arg2) = (fun i => ((B i : ℝ) : EReal))) :
    θ_run defs (onTc (τ := τ) (main (F := Ideal))) ⟨m, fun _ => 0, ρ⟩ fun r => ∀ c : Dev nD,
      r.2.mem ((c : Thread nD τ).loc main_v1)
        = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
      obtain ⟨X, W, B, h0, h1, h2⟩ := hreal c
      exact ⟨(h c).1.trans (final_eq m X W B c h0 h1 h2), (h c).2⟩)
    (Value.run_blocks m ρ)

end Cert.KernelIdeal.Blocks

end
-- ==== Proof.RefRead.lean ====
/-
  The reference read at an entry.  It transposes the input, multiplies the weight by it, transposes back and adds
  the bias along the rows; over the extended reals its entry (t, o) is the sum over the 2048 input features k of
  weight(o, k) · input(t, k), plus bias(o).
-/
import proofs.«113140_g50525995270225_cont_8to1_c_264_20_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

theorem lhs_index (i : S8192x2048.Idx) (k : Fin 2048) : lidx_main_v1 (idx_main_v2 i) k = ix2 (i 1) k :=
  funext fun a => Fin.ext (by match a with | ⟨0, _⟩ => rfl | ⟨1, _⟩ => rfl)

theorem rhs_index (i : S8192x2048.Idx) (k : Fin 2048) : idx_main_v0 (ridx_main_v1 (idx_main_v2 i) k) = ix2 (i 0) k :=
  funext fun a => Fin.ext (by match a with | ⟨0, _⟩ => rfl | ⟨1, _⟩ => rfl)

theorem bias_index (i : S8192x2048.Idx) : idx_main_v3 (idx_main_v4 i) = ix1 (i 1) :=
  funext fun a => Fin.ext (by match a with | ⟨0, _⟩ => rfl)

/-- Entry (t, o) of the reference's result: ∑ k, weight(o, k) · input(t, k), plus bias(o). -/
theorem result_apply (x0 : (⟨S8192x2048, .f32⟩ : BufTy).Contents (Elt Ideal)) (x1 : (⟨S2048x2048, .f32⟩ : BufTy).Contents (Elt Ideal))
    (x2 : (⟨S2048, .f32⟩ : BufTy).Contents (Elt Ideal)) (i : S8192x2048.Idx) :
    val_main_v5 (F := Ideal) x0 x1 x2 i = (∑ k : Fin 2048, x1 (ix2 (i 1) k) * x0 (ix2 (i 0) k)) + x2 (ix1 (i 1)) := by
  rw [val_main_v5_apply, val_main_v2_apply, val_main_v1_apply, val_main_v4_apply, val_main_v3_apply, bias_index]
  simp only [val_main_v0_apply, lhs_index, rhs_index]
  rfl

end Cert.ReferenceIdeal.RefValue

end
-- ==== Proof.Finite.lean ====
/-
  Finite inputs are real.  The precondition says that every entry of the three arguments has an absolute value
  below +∞; over the extended reals such an entry is a real number, so each argument array is the image of a
  real-valued array.  This is what lets the sums and differences of the seven-product scheme cancel.
-/
import proofs.«113140_g50525995270225_cont_8to1_c_264_20_alg».proof.Pre_finite_inputs
import proofs.«113140_g50525995270225_cont_8to1_c_264_20_alg».proof.Proof.Gen.Pre_finite_inputs
import Idealize.ShloMosaic.Lib.ValueIdx
import Idealize.ShloMosaic.Lib.ReduceAll
import Idealize.ShloMosaic.PureOps.Ideal.Laws

noncomputable section

namespace Cert.Finite

open Idealize.ShloMosaic Cert.Pre_finite_inputs

instance : Subsingleton S_.Idx := ⟨fun a b => funext fun d => d.elim0⟩

/-- The f32 pattern of +∞ denotes ⊤. -/
theorem inf_eq_top : Ideal.ofBits .f32 0x7F800000#32 = (⊤ : EReal) := by
  simp [Ideal.ofBits, Ideal.ieee]

/-- An extended real whose absolute value max x (−x) is below +∞ is a real number. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => exfalso; simp [Ideal.cmp] at h
  | top => exfalso; simp [Ideal.cmp] at h
  | coe r => exact ⟨r, rfl⟩

/-- An array all of whose entries pass the finiteness test is the image of a real-valued array. -/
theorem real_array {s : Shape} (a : FVec Ideal s .f32)
    (h : ∀ i, Ideal.cmp .olt (max (a i) (-(a i))) (Ideal.ofBits .f32 0x7F800000#32) = 1#1) :
    ∃ A : s.Idx → ℝ, a = fun i => ((A i : ℝ) : EReal) := by
  choose A hA using fun i => real_of_abs_lt (a i) (h i)
  exact ⟨A, funext hA⟩

/-- Under the precondition the three arguments are real-valued arrays. -/
theorem reals_of_pre [Cert.Pre_finite_inputs.Facts] (a0 : FVec Ideal S8192x2048 .f32) (a1 : FVec Ideal S2048x2048 .f32)
    (a2 : FVec Ideal S2048 .f32) (h : Cert.Pre_finite_inputs.fn (F := Ideal) a0 a1 a2 = fun _ => 1#1) :
    (∃ X : S8192x2048.Idx → ℝ, a0 = fun i => ((X i : ℝ) : EReal))
      ∧ (∃ W : S2048x2048.Idx → ℝ, a1 = fun i => ((W i : ℝ) : EReal))
      ∧ (∃ B : S2048.Idx → ℝ, a2 = fun i => ((B i : ℝ) : EReal)) := by
  have h0 := congrFun h ValueIdx.ix0
  dsimp only [Cert.Pre_finite_inputs.fn, andi] at h0
  obtain ⟨h01, h2⟩ := IntOp.andi_eq_one.mp h0
  obtain ⟨h0', h1⟩ := IntOp.andi_eq_one.mp h01
  refine ⟨real_array a0 fun i => ?_, real_array a1 fun i => ?_, real_array a2 fun i => ?_⟩
  · exact Host.reduce_andi_all _ _ _ _ _ h0' i
  · exact Host.reduce_andi_all _ _ _ _ _ h1 i
  · exact Host.reduce_andi_all _ _ _ _ _ h2 i

end Cert.Finite

end
-- ==== Proof.lean ====
/-
  The kernel computes output = input · weightᵀ + bias over blocks of 512 input rows with one level of the
  seven-product scheme for 2x2-blocked matrices: at the first grid point it stores the seven combinations of the
  weight quadrants in a buffer carried between points, and at every point it forms seven half-size products of
  combinations of the input block's quadrants with those planes and recombines them, by additions and
  subtractions, into the four quadrants of the output block.  The reference multiplies the weight by the
  transposed input and adds the bias.  Over the extended reals subtraction cancels only for finite values, and
  the precondition makes every input entry a real number: then every intermediate is real, the scheme's four
  identities hold in the reals, and entry (t, o) of both results is ∑ k, weight(o, k) · input(t, k) + bias(o).
  The idealization rewrote no operation, so nothing is owed for it; the frames are the generated ones, the
  reference's being its generated run with the result dropped.
-/
import proofs.«113140_g50525995270225_cont_8to1_c_264_20_alg».proof.Defs
import proofs.«113140_g50525995270225_cont_8to1_c_264_20_alg».proof.Proof.Gen.Kernel
import proofs.«113140_g50525995270225_cont_8to1_c_264_20_alg».proof.Proof.Gen.Kernel.Skeleton
import proofs.«113140_g50525995270225_cont_8to1_c_264_20_alg».proof.Proof.Gen.Kernel.Launch
import proofs.«113140_g50525995270225_cont_8to1_c_264_20_alg».proof.Proof.Gen.Kernel.Points
import proofs.«113140_g50525995270225_cont_8to1_c_264_20_alg».proof.Proof.Gen.Kernel.Frame
import proofs.«113140_g50525995270225_cont_8to1_c_264_20_alg».proof.Proof.Gen.KernelIdeal
import proofs.«113140_g50525995270225_cont_8to1_c_264_20_alg».proof.Proof.Gen.KernelIdeal.Skeleton
import proofs.«113140_g50525995270225_cont_8to1_c_264_20_alg».proof.Proof.Gen.KernelIdeal.Launch
import proofs.«113140_g50525995270225_cont_8to1_c_264_20_alg».proof.Proof.Gen.KernelIdeal.Points
import proofs.«113140_g50525995270225_cont_8to1_c_264_20_alg».proof.Proof.Gen.KernelIdeal.Frame
import proofs.«113140_g50525995270225_cont_8to1_c_264_20_alg».proof.Proof.Gen.ReferenceIdeal
import proofs.«113140_g50525995270225_cont_8to1_c_264_20_alg».proof.Proof.Gen.Pre_finite_inputs
import proofs.«113140_g50525995270225_cont_8to1_c_264_20_alg».proof.Proof.Gen.KernelIdeal.Value
import proofs.«113140_g50525995270225_cont_8to1_c_264_20_alg».proof.Proof.Gen.ReferenceIdeal.Run
import proofs.«113140_g50525995270225_cont_8to1_c_264_20_alg».proof.Proof.Gen.ReferenceIdeal.Read
import proofs.«113140_g50525995270225_cont_8to1_c_264_20_alg».proof.Proof.Final
import proofs.«113140_g50525995270225_cont_8to1_c_264_20_alg».proof.Proof.RefRead
import proofs.«113140_g50525995270225_cont_8to1_c_264_20_alg».proof.Proof.Finite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end at the linear map of the arguments: the kernel by the seven-product identities over the
    real-valued inputs the precondition gives, the reference by reading its operations at an entry. -/
theorem algebraic : Cert.algebraic_KernelIdeal_ReferenceIdeal := by
  intro m ρ m' ρ' hpre hagree
  have hreal : ∀ c : Dev Cert.KernelIdeal.nD, ∃ (X : Cert.KernelIdeal.S8192x2048.Idx → ℝ) (W : Cert.KernelIdeal.S2048x2048.Idx → ℝ)
      (B : Cert.KernelIdeal.S2048.Idx → ℝ),
      m ((c.tc : Thread Cert.KernelIdeal.nD Cert.KernelIdeal.τ).loc Cert.KernelIdeal.main_arg0) = (fun i => ((X i : ℝ) : EReal))
      ∧ m ((c.tc : Thread Cert.KernelIdeal.nD Cert.KernelIdeal.τ).loc Cert.KernelIdeal.main_arg1) = (fun i => ((W i : ℝ) : EReal))
      ∧ m ((c.tc : Thread Cert.KernelIdeal.nD Cert.KernelIdeal.τ).loc Cert.KernelIdeal.main_arg2) = (fun i => ((B i : ℝ) : EReal)) := fun c => by
    obtain ⟨⟨X, hX⟩, ⟨W, hW⟩, ⟨B, hB⟩⟩ := Cert.Finite.reals_of_pre _ _ _ (hpre c)
    exact ⟨X, W, B, hX, hW, hB⟩
  refine ⟨fun c => Cert.KernelIdeal.Blocks.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run_linear m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2]
  funext i
  rw [Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
